-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x64 : Shape := ⟨3, ![1024, 128, 64]⟩
abbrev S1024x128x128 : Shape := ⟨3, ![1024, 128, 128]⟩
abbrev S1024x128x1 : Shape := ⟨3, ![1024, 128, 1]⟩
abbrev S256x64 : Shape := ⟨2, ![256, 64]⟩
abbrev S256 : Shape := ⟨1, ![256]⟩
abbrev S256x256 : Shape := ⟨2, ![256, 256]⟩
abbrev S256x257 : Shape := ⟨2, ![256, 257]⟩
abbrev S1x256 : Shape := ⟨2, ![1, 256]⟩
abbrev S1 : Shape := ⟨1, ![1]⟩
abbrev S_ : Shape := ⟨0, ![]⟩

class Facts : Prop where
  bcast_S_S1024x128x64 : S_.BroadcastsInDim S1024x128x64 (![] : Fin 0 → Fin S1024x128x64.rank)
  reducesTo_S1024x128x64_S_d0_1_2 : S1024x128x64.ReducesTo [0, 1, 2] S_
  h_S_ : 0 < S_.numel
  bcast_S_S1024x128x128 : S_.BroadcastsInDim S1024x128x128 (![] : Fin 0 → Fin S1024x128x128.rank)
  reducesTo_S1024x128x128_S_d0_1_2 : S1024x128x128.ReducesTo [0, 1, 2] S_
  bcast_S_S1024x128x1 : S_.BroadcastsInDim S1024x128x1 (![] : Fin 0 → Fin S1024x128x1.rank)
  reducesTo_S1024x128x1_S_d0_1_2 : S1024x128x1.ReducesTo [0, 1, 2] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x257 : S_.BroadcastsInDim S256x257 (![] : Fin 0 → Fin S256x257.rank)
  reducesTo_S256x257_S_d0_1 : S256x257.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S256 .f32) (main_arg15 : FVec F S256x256 .f32) (main_arg16 : FVec F S256 .f32) (main_arg17 : FVec F S1x256 .f32) (main_arg18 : FVec F S1 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S1x256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x257 .f32 := Host.absf main_arg11
  let main_cst_20 : FVec F S_ .f32 := constant S_ .f32 0x7F800000#32
  let main_v55 : FVec F S256x257 .f32 := broadcastInDim S256x257 ![] bcast_S_S256x257 main_cst_20
  let main_v56 : IVec S256x257 1 := cmpf .olt main_v54 main_v55
  let main_c_21 : IVec S_ 1 := constantI S_ 1 1#1
  let main_v57 : IVec S_ 1 := (fun x v => Host.reduce IntOp.andi x v reducesTo_S256x257_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1024x128x64 .f32) (main_arg1 : FVec F S1024x128x128 .f32) (main_arg2 : FVec F S1024x128x1 .f32) (main_arg3 : FVec F S256x64 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) : IVec S_ 1 :=
  let main_v0 : FVec F S1024x128x64 .f32 := Host.absf main_arg0
  let main_cst : FVec F S_ .f32 := constant S_ .f32 0x7F800000#32
  let main_v1 : FVec F S1024x128x64 .f32 := broadcastInDim S1024x128x64 ![] bcast_S_S1024x128x64 main_cst
  let main_v2 : IVec S1024x128x64 1 := cmpf .olt main_v0 main_v1
  let main_c : IVec S_ 1 := constantI S_ 1 1#1
  let main_v3 : IVec S_ 1 := (fun x v => Host.reduce IntOp.andi x v reducesTo_S1024x128x64_S_d0_1_2 h_S_) main_v2 main_c
  let main_v4 : FVec F S1024x128x128 .f32 := Host.absf main_arg1
  let main_cst_0 : FVec F S_ .f32 := constant S_ .f32 0x7F800000#32
  let main_v5 : FVec F S1024x128x128 .f32 := broadcastInDim S1024x128x128 ![] bcast_S_S1024x128x128 main_cst_0
  let main_v6 : IVec S1024x128x128 1 := cmpf .olt main_v4 main_v5
  let main_c_1 : IVec S_ 1 := constantI S_ 1 1#1
  let main_v7 : IVec S_ 1 := (fun x v => Host.reduce IntOp.andi x v reducesTo_S1024x128x128_S_d0_1_2 h_S_) main_v6 main_c_1
  let main_v8 : IVec S_ 1 := andi main_v3 main_v7
  let main_v9 : FVec F S1024x128x1 .f32 := Host.absf main_arg2
  let main_cst_2 : FVec F S_ .f32 := constant S_ .f32 0x7F800000#32
  let main_v10 : FVec F S1024x128x1 .f32 := broadcastInDim S1024x128x1 ![] bcast_S_S1024x128x1 main_cst_2
  let main_v11 : IVec S1024x128x1 1 := cmpf .olt main_v9 main_v10
  let main_c_3 : IVec S_ 1 := constantI S_ 1 1#1
  let main_v12 : IVec S_ 1 := (fun x v => Host.reduce IntOp.andi x v reducesTo_S1024x128x1_S_d0_1_2 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1024x128x64 : Shape := ⟨3, ![1024, 128, 64]⟩
abbrev S1024x128x128 : Shape := ⟨3, ![1024, 128, 128]⟩
abbrev S1024x128x1 : Shape := ⟨3, ![1024, 128, 1]⟩
abbrev S256x64 : Shape := ⟨2, ![256, 64]⟩
abbrev S256 : Shape := ⟨1, ![256]⟩
abbrev S256x256 : Shape := ⟨2, ![256, 256]⟩
abbrev S256x257 : Shape := ⟨2, ![256, 257]⟩
abbrev S1x256 : Shape := ⟨2, ![1, 256]⟩
abbrev S1 : Shape := ⟨1, ![1]⟩
abbrev S4x128x64 : Shape := ⟨3, ![4, 128, 64]⟩
abbrev S4x128x128 : Shape := ⟨3, ![4, 128, 128]⟩
abbrev S4x128x1 : Shape := ⟨3, ![4, 128, 1]⟩
abbrev S512x64 : Shape := ⟨2, ![512, 64]⟩
abbrev S64x256 : Shape := ⟨2, ![64, 256]⟩
abbrev S512x256 : Shape := ⟨2, ![512, 256]⟩
abbrev S4x128x256 : Shape := ⟨3, ![4, 128, 256]⟩
abbrev S4x128 : Shape := ⟨2, ![4, 128]⟩
abbrev S4x128x257 : Shape := ⟨3, ![4, 128, 257]⟩
abbrev S512x257 : Shape := ⟨2, ![512, 257]⟩
abbrev S257x256 : Shape := ⟨2, ![257, 256]⟩
abbrev S256x1 : Shape := ⟨2, ![256, 1]⟩
abbrev S512x1 : Shape := ⟨2, ![512, 1]⟩
abbrev S1x1 : Shape := ⟨2, ![1, 1]⟩

abbrev nBuf : Space → Nat
  | .hbm => 21
  | .vmem => 26
  | .smem => 0
  | _ => 0

abbrev bufTy : (tb : Table) → Fin (tcTables nBuf tb) → BufTy
  | .hbm, ⟨0, _⟩ => ⟨S1024x128x64, .f32⟩
  | .hbm, ⟨1, _⟩ => ⟨S1024x128x128, .f32⟩
  | .hbm, ⟨2, _⟩ => ⟨S1024x128x1, .f32⟩
  | .hbm, ⟨3, _⟩ => ⟨S256x64, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S1024x128x1, .f32⟩
  | .hbm, ⟨20, _⟩ => ⟨S1024x128x128, .f32⟩
  | .local _ .vmem, ⟨0, _⟩ => ⟨S4x128x64, .f32⟩
  | .local _ .vmem, ⟨1, _⟩ => ⟨S4x128x64, .f32⟩
  | .local _ .vmem, ⟨2, _⟩ => ⟨S4x128x128, .f32⟩
  | .local _ .vmem, ⟨3, _⟩ => ⟨S4x128x128, .f32⟩
  | .local _ .vmem, ⟨4, _⟩ => ⟨S4x128x1, .f32⟩
  | .local _ .vmem, ⟨5, _⟩ => ⟨S4x128x1, .f32⟩
  | .local _ .vmem, ⟨6, _⟩ => ⟨S256x64, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x257, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S256x256, .f32⟩
  | .local _ .vmem, ⟨19, _⟩ => ⟨S256, .f32⟩
  | .local _ .vmem, ⟨20, _⟩ => ⟨S1x256, .f32⟩
  | .local _ .vmem, ⟨21, _⟩ => ⟨S1, .f32⟩
  | .local _ .vmem, ⟨22, _⟩ => ⟨S4x128x1, .f32⟩
  | .local _ .vmem, ⟨23, _⟩ => ⟨S4x128x1, .f32⟩
  | .local _ .vmem, ⟨24, _⟩ => ⟨S4x128x128, .f32⟩
  | .local _ .vmem, ⟨25, _⟩ => ⟨S4x128x128, .f32⟩
  | _, _ => ⟨S1024x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x257 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4x128x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  inb_S4x128x64_S4x128x64_0_0_0 : ∀ a, (![0, 0, 0] : Fin 3 → Nat) a + S4x128x64.size a ≤ S4x128x64.size a
  h_S4x128x64 : 0 < S4x128x64.numel
  bitsLt_bf16_f32 : FTy.bits .bf16 < FTy.bits .f32
  shapeCasts_S4x128x64_S512x64 : S4x128x64.ShapeCasts S512x64
  inb_S256x64_S256x64_0_0 : ∀ a, (![0, 0] : Fin 2 → Nat) a + S256x64.size a ≤ S256x64.size a
  h_S256x64 : 0 < S256x64.numel
  inb_S256_S256_0 : ∀ a, (![0] : Fin 1 → Nat) a + S256.size a ≤ S256.size a
  h_S256 : 0 < S256.numel
  transposes_S256x64_p1_0_S64x256 : S256x64.Transposes [1, 0] S64x256
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S512x256_S4x128x256 : S512x256.ShapeCasts S4x128x256
  inb_S4x128x128_S4x128x128_0_0_0 : ∀ a, (![0, 0, 0] : Fin 3 → Nat) a + S4x128x128.size a ≤ S4x128x128.size a
  h_S4x128x128 : 0 < S4x128x128.numel
  reduces_S4x128x128_S4x128 : S4x128x128.Reduces [2] S4x128
  shapeCasts_S4x128_S4x128x1 : S4x128.ShapeCasts S4x128x1
  broadcasts_S4x128x1_S4x128x128 : S4x128x1.Broadcasts S4x128x128
  inb_S4x128x1_S4x128x1_0_0_0 : ∀ a, (![0, 0, 0] : Fin 3 → Nat) a + S4x128x1.size a ≤ S4x128x1.size a
  h_S4x128x1 : 0 < S4x128x1.numel
  concatenates_S4x128x256_S4x128x1_S4x128x257_d2 : Shape.Concatenates [S4x128x256, S4x128x1] S4x128x257 2
  shapeCasts_S4x128x257_S512x257 : S4x128x257.ShapeCasts S512x257
  inb_S256x257_S256x257_0_0 : ∀ a, (![0, 0] : Fin 2 → Nat) a + S256x257.size a ≤ S256x257.size a
  h_S256x257 : 0 < S256x257.numel
  transposes_S256x257_p1_0_S257x256 : S256x257.Transposes [1, 0] S257x256
  inb_S1x256_S1x256_0_0 : ∀ a, (![0, 0] : Fin 2 → Nat) a + S1x256.size a ≤ S1x256.size a
  h_S1x256 : 0 < S1x256.numel
  inb_S1_S1_0 : ∀ a, (![0] : Fin 1 → Nat) a + S1.size a ≤ S1.size a
  h_S1 : 0 < S1.numel
  transposes_S1x256_p1_0_S256x1 : S1x256.Transposes [1, 0] S256x1
  shapeCasts_S1_S1x1 : S1.ShapeCasts S1x1
  broadcasts_S1x1_S512x1 : S1x1.Broadcasts S512x1
  shapeCasts_S512x1_S4x128x1 : S512x1.ShapeCasts S4x128x1
  dot_S512x64_S64x256_S512x256_1_0_0_1_n_n_wf : DotDims.WF S512x64 S64x256 S512x256 [1] [0] [0] [1] [] []
  dot_S512x256_S256x256_S512x256_1_0_0_1_n_n_wf : DotDims.WF S512x256 S256x256 S512x256 [1] [0] [0] [1] [] []
  dot_S4x128x256_S4x128x256_S4x128x128_2_2_1_1_0_0_wf : DotDims.WF S4x128x256 S4x128x256 S4x128x128 [2] [2] [1] [1] [0] [0]
  dot_S4x128x128_S4x128x256_S4x128x256_2_1_1_2_0_0_wf : DotDims.WF S4x128x128 S4x128x256 S4x128x256 [2] [1] [1] [2] [0] [0]
  dot_S512x257_S257x256_S512x256_1_0_0_1_n_n_wf : DotDims.WF S512x257 S257x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x64.size a ≤ S1024x128x64.size a
  hwx0_0 : ∀ i : grid0.Coords, EltTy.bits .f32 = 32 ∨ (Rect.block (s := S1024x128x64) S4x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S1024x128x128.size a
  hwx0_1 : ∀ i : grid0.Coords, EltTy.bits .f32 = 32 ∨ (Rect.block (s := S1024x128x128) S4x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x1.size a ≤ S1024x128x1.size a
  hwx0_2 : ∀ i : grid0.Coords, EltTy.bits .f32 = 32 ∨ (Rect.block (s := S1024x128x1) S4x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x257.size a ≤ S256x257.size a
  hwx0_11 : ∀ i : grid0.Coords, EltTy.bits .f32 = 32 ∨ (Rect.block (s := S256x257) S256x257.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .f32 = 32 ∨ (Rect.block (s := S256x256) S256x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1.size a ≤ S1.size a
  hwx0_18 : ∀ i : grid0.Coords, EltTy.bits .f32 = 32 ∨ (Rect.block (s := S1) S1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4x128x1.size a ≤ S1024x128x1.size a
  hwx0_19 : ∀ i : grid0.Coords, EltTy.bits .f32 = 32 ∨ (Rect.block (s := S1024x128x1) S4x128x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S4x128x128.size a ≤ S1024x128x128.size a
  hwx0_20 : ∀ i : grid0.Coords, EltTy.bits .f32 = 32 ∨ (Rect.block (s := S1024x128x128) S4x128x128.size (cc0_transform_20 i) (hinb0_20 i)).WholeWords (EltTy.packing .f32)

variable [Facts₀]

def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S4x128x256_S4x128x256_S4x128x128_2_2_1_1_0_0 : DotDims S4x128x256 S4x128x256 S4x128x128 where
  lhsContracting := [2]
  rhsContracting := [2]
  lhsNonContracting := [1]
  rhsNonContracting := [1]
  lhsBatch := [0]
  rhsBatch := [0]
  wf := dot_S4x128x256_S4x128x256_S4x128x128_2_2_1_1_0_0_wf
def dot_S4x128x128_S4x128x256_S4x128x256_2_1_1_2_0_0 : DotDims S4x128x128 S4x128x256 S4x128x256 where
  lhsContracting := [2]
  rhsContracting := [1]
  lhsNonContracting := [1]
  rhsNonContracting := [2]
  lhsBatch := [0]
  rhsBatch := [0]
  wf := dot_S4x128x128_S4x128x256_S4x128x256_2_1_1_2_0_0_wf
def dot_S512x257_S257x256_S512x256_1_0_0_1_n_n : DotDims S512x257 S257x256 S512x256 where
  lhsContracting := [1]
  rhsContracting := [0]
  lhsNonContracting := [0]
  rhsNonContracting := [1]
  lhsBatch := []
  rhsBatch := []
  wf := dot_S512x257_S257x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S4x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x257.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v0_0) S4x128x1.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v0_1) S4x128x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S1024x128x64 : Shape := ⟨3, ![1024, 128, 64]⟩
abbrev S1024x128x128 : Shape := ⟨3, ![1024, 128, 128]⟩
abbrev S1024x128x1 : Shape := ⟨3, ![1024, 128, 1]⟩
abbrev S256x64 : Shape := ⟨2, ![256, 64]⟩
abbrev S256 : Shape := ⟨1, ![256]⟩
abbrev S256x256 : Shape := ⟨2, ![256, 256]⟩
abbrev S256x257 : Shape := ⟨2, ![256, 257]⟩
abbrev S1x256 : Shape := ⟨2, ![1, 256]⟩
abbrev S1 : Shape := ⟨1, ![1]⟩
abbrev S1024x128x256 : Shape := ⟨3, ![1024, 128, 256]⟩
abbrev S1x1x256 : Shape := ⟨3, ![1, 1, 256]⟩
abbrev S_ : Shape := ⟨0, ![]⟩
abbrev S1024x128 : Shape := ⟨2, ![1024, 128]⟩
abbrev S1024x128x257 : Shape := ⟨3, ![1024, 128, 257]⟩
abbrev S1x1x1 : Shape := ⟨3, ![1, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S1024x128x64, .f32⟩
  | .hbm, ⟨1, _⟩ => ⟨S1024x128x128, .f32⟩
  | .hbm, ⟨2, _⟩ => ⟨S1024x128x1, .f32⟩
  | .hbm, ⟨3, _⟩ => ⟨S256x64, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S1024x128x256, .f32⟩
  | .hbm, ⟨20, _⟩ => ⟨S1x1x256, .f32⟩
  | .hbm, ⟨21, _⟩ => ⟨S1024x128x256, .f32⟩
  | .hbm, ⟨22, _⟩ => ⟨S1024x128x256, .f32⟩
  | .hbm, ⟨23, _⟩ => ⟨S_, .f32⟩
  | .hbm, ⟨24, _⟩ => ⟨S1024x128x256, .f32⟩
  | .hbm, ⟨25, _⟩ => ⟨S1024x128x256, .f32⟩
  | .hbm, ⟨26, _⟩ => ⟨S1024x128x256, .f32⟩
  | .hbm, ⟨27, _⟩ => ⟨S1x1x256, .f32⟩
  | .hbm, ⟨28, _⟩ => ⟨S1024x128x256, .f32⟩
  | .hbm, ⟨29, _⟩ => ⟨S1024x128x256, .f32⟩
  | .hbm, ⟨30, _⟩ => ⟨S_, .f32⟩
  | .hbm, ⟨31, _⟩ => ⟨S1024x128x256, .f32⟩
  | .hbm, ⟨32, _⟩ => ⟨S1024x128x256, .f32⟩
  | .hbm, ⟨33, _⟩ => ⟨S1024x128x256, .f32⟩
  | .hbm, ⟨34, _⟩ => ⟨S1x1x256, .f32⟩
  | .hbm, ⟨35, _⟩ => ⟨S1024x128x256, .f32⟩
  | .hbm, ⟨36, _⟩ => ⟨S1024x128x256, .f32⟩
  | .hbm, ⟨37, _⟩ => ⟨S_, .f32⟩
  | .hbm, ⟨38, _⟩ => ⟨S1024x128x256, .f32⟩
  | .hbm, ⟨39, _⟩ => ⟨S1024x128x256, .f32⟩
  | .hbm, ⟨40, _⟩ => ⟨S1024x128x256, .f32⟩
  | .hbm, ⟨41, _⟩ => ⟨S1x1x256, .f32⟩
  | .hbm, ⟨42, _⟩ => ⟨S1024x128x256, .f32⟩
  | .hbm, ⟨43, _⟩ => ⟨S1024x128x256, .f32⟩
  | .hbm, ⟨44, _⟩ => ⟨S_, .f32⟩
  | .hbm, ⟨45, _⟩ => ⟨S1024x128x256, .f32⟩
  | .hbm, ⟨46, _⟩ => ⟨S1024x128x256, .f32⟩
  | .hbm, ⟨47, _⟩ => ⟨S1024x128x128, .f32⟩
  | .hbm, ⟨48, _⟩ => ⟨S1024x128x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1024x128x128, .f32⟩
  | .hbm, ⟨53, _⟩ => ⟨S1024x128x128, .f32⟩
  | .hbm, ⟨54, _⟩ => ⟨S_, .f32⟩
  | .hbm, ⟨55, _⟩ => ⟨S1024x128x128, .f32⟩
  | .hbm, ⟨56, _⟩ => ⟨S1024x128x128, .f32⟩
  | .hbm, ⟨57, _⟩ => ⟨S_, .f32⟩
  | .hbm, ⟨58, _⟩ => ⟨S1024x128x128, .f32⟩
  | .hbm, ⟨59, _⟩ => ⟨S1024x128x128, .f32⟩
  | .hbm, ⟨60, _⟩ => ⟨S_, .f32⟩
  | .hbm, ⟨61, _⟩ => ⟨S1024x128x128, .f32⟩
  | .hbm, ⟨62, _⟩ => ⟨S1024x128x128, .f32⟩
  | .hbm, ⟨63, _⟩ => ⟨S1024x128x128, .f32⟩
  | .hbm, ⟨64, _⟩ => ⟨S_, .f32⟩
  | .hbm, ⟨65, _⟩ => ⟨S1024x128, .f32⟩
  | .hbm, ⟨66, _⟩ => ⟨S_, .f32⟩
  | .hbm, ⟨67, _⟩ => ⟨S1024x128, .f32⟩
  | .hbm, ⟨68, _⟩ => ⟨S1024x128, .f32⟩
  | .hbm, ⟨69, _⟩ => ⟨S1024x128x1, .f32⟩
  | .hbm, ⟨70, _⟩ => ⟨S1024x128x128, .f32⟩
  | .hbm, ⟨71, _⟩ => ⟨S1024x128x128, .f32⟩
  | .hbm, ⟨72, _⟩ => ⟨S1024x128x128, .f32⟩
  | .hbm, ⟨73, _⟩ => ⟨S_, .f32⟩
  | .hbm, ⟨74, _⟩ => ⟨S1024x128, .f32⟩
  | .hbm, ⟨75, _⟩ => ⟨S1024x128x1, .f32⟩
  | .hbm, ⟨76, _⟩ => ⟨S1024x128x128, .f32⟩
  | .hbm, ⟨77, _⟩ => ⟨S1024x128x128, .f32⟩
  | .hbm, ⟨78, _⟩ => ⟨S1024x128x256, .f32⟩
  | .hbm, ⟨79, _⟩ => ⟨S1024x128x257, .f32⟩
  | .hbm, ⟨80, _⟩ => ⟨S1024x128x256, .f32⟩
  | .hbm, ⟨81, _⟩ => ⟨S1x1x256, .f32⟩
  | .hbm, ⟨82, _⟩ => ⟨S1024x128x256, .f32⟩
  | .hbm, ⟨83, _⟩ => ⟨S1024x128x256, .f32⟩
  | .hbm, ⟨84, _⟩ => ⟨S_, .f32⟩
  | .hbm, ⟨85, _⟩ => ⟨S1024x128x256, .f32⟩
  | .hbm, ⟨86, _⟩ => ⟨S1024x128x256, .f32⟩
  | .hbm, ⟨87, _⟩ => ⟨S1024x128x256, .f32⟩
  | .hbm, ⟨88, _⟩ => ⟨S1x1x256, .f32⟩
  | .hbm, ⟨89, _⟩ => ⟨S1024x128x256, .f32⟩
  | .hbm, ⟨90, _⟩ => ⟨S1024x128x256, .f32⟩
  | .hbm, ⟨91, _⟩ => ⟨S_, .f32⟩
  | .hbm, ⟨92, _⟩ => ⟨S1024x128x256, .f32⟩
  | .hbm, ⟨93, _⟩ => ⟨S1024x128x256, .f32⟩
  | .hbm, ⟨94, _⟩ => ⟨S1024x128x256, .f32⟩
  | .hbm, ⟨95, _⟩ => ⟨S1x1x256, .f32⟩
  | .hbm, ⟨96, _⟩ => ⟨S1024x128x256, .f32⟩
  | .hbm, ⟨97, _⟩ => ⟨S1024x128x256, .f32⟩
  | .hbm, ⟨98, _⟩ => ⟨S_, .f32⟩
  | .hbm, ⟨99, _⟩ => ⟨S1024x128x256, .f32⟩
  | .hbm, ⟨100, _⟩ => ⟨S1024x128x256, .f32⟩
  | .hbm, ⟨101, _⟩ => ⟨S1024x128x1, .f32⟩
  | .hbm, ⟨102, _⟩ => ⟨S1x1x1, .f32⟩
  | .hbm, ⟨103, _⟩ => ⟨S1024x128x1, .f32⟩
  | .hbm, ⟨104, _⟩ => ⟨S1024x128x1, .f32⟩
  | _, _ => ⟨S1024x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call2_cst : Ref sig .tc := ⟨.hbm, 37, rfl⟩
abbrev main_call2_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call3_cst : Ref sig .tc := ⟨.hbm, 44, rfl⟩
abbrev main_call3_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst : Ref sig .tc := ⟨.hbm, 49, rfl⟩
abbrev main_cst_0 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_v22 : Ref sig .tc := ⟨.hbm, 56, rfl⟩
abbrev main_cst_1 : Ref sig .tc := ⟨.hbm, 57, rfl⟩
abbrev main_v23 : Ref sig .tc := ⟨.hbm, 58, rfl⟩
abbrev main_v24 : Ref sig .tc := ⟨.hbm, 59, rfl⟩
abbrev main_cst_2 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call5_cst : Ref sig .tc := ⟨.hbm, 84, rfl⟩
abbrev main_call5_v0 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_call6_cst : Ref sig .tc := ⟨.hbm, 91, rfl⟩
abbrev main_call6_v0 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call7_cst : Ref sig .tc := ⟨.hbm, 98, rfl⟩
abbrev main_call7_v0 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1024x128x256_0_1_2 : S1x1x256.BroadcastsInDim S1024x128x256 (![0, 1, 2] : Fin 3 → Fin S1024x128x256.rank)
  bcast_S_S1024x128x256 : S_.BroadcastsInDim S1024x128x256 (![] : Fin 0 → Fin S1024x128x256.rank)
  bcast_S_S1024x128x128 : S_.BroadcastsInDim S1024x128x128 (![] : Fin 0 → Fin S1024x128x128.rank)
  reducesTo_S1024x128x128_S1024x128_d2 : S1024x128x128.ReducesTo [2] S1024x128
  h_S_ : 0 < S_.numel
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S1024x128x1_S1024x128x128_0_1_2 : S1024x128x1.BroadcastsInDim S1024x128x128 (![0, 1, 2] : Fin 3 → Fin S1024x128x128.rank)
  concatenates_S1024x128x256_S1024x128x1_S1024x128x257_d2 : Shape.Concatenates [S1024x128x256, S1024x128x1] S1024x128x257 2
  bcast_S1_S1x1x1_2 : S1.BroadcastsInDim S1x1x1 (![2] : Fin 1 → Fin S1x1x1.rank)
  bcast_S1x1x1_S1024x128x1_0_1_2 : S1x1x1.BroadcastsInDim S1024x128x1 (![0, 1, 2] : Fin 3 → Fin S1024x128x1.rank)
  dot_S1024x128x64_S256x64_S1024x128x256_2_1_01_0_n_n_wf : DotDims.WF S1024x128x64 S256x64 S1024x128x256 [2] [1] [0, 1] [0] [] []
  dot_S1024x128x256_S256x256_S1024x128x256_2_1_01_0_n_n_wf : DotDims.WF S1024x128x256 S256x256 S1024x128x256 [2] [1] [0, 1] [0] [] []
  dot_S1024x128x256_S1024x128x256_S1024x128x128_2_2_1_1_0_0_wf : DotDims.WF S1024x128x256 S1024x128x256 S1024x128x128 [2] [2] [1] [1] [0] [0]
  dot_S1024x128x128_S1024x128x256_S1024x128x256_2_1_1_2_0_0_wf : DotDims.WF S1024x128x128 S1024x128x256 S1024x128x256 [2] [1] [1] [2] [0] [0]
  dot_S1024x128x257_S256x257_S1024x128x256_2_1_01_0_n_n_wf : DotDims.WF S1024x128x257 S256x257 S1024x128x256 [2] [1] [0, 1] [0] [] []
  dot_S1024x128x256_S1x256_S1024x128x1_2_1_01_0_n_n_wf : DotDims.WF S1024x128x256 S1x256 S1024x128x1 [2] [1] [0, 1] [0] [] []

variable [Facts₀]

def dot_S1024x128x64_S256x64_S1024x128x256_2_1_01_0_n_n : DotDims S1024x128x64 S256x64 S1024x128x256 where
  lhsContracting := [2]
  rhsContracting := [1]
  lhsNonContracting := [0, 1]
  rhsNonContracting := [0]
  lhsBatch := []
  rhsBatch := []
  wf := dot_S1024x128x64_S256x64_S1024x128x256_2_1_01_0_n_n_wf
def dot_S1024x128x256_S256x256_S1024x128x256_2_1_01_0_n_n : DotDims S1024x128x256 S256x256 S1024x128x256 where
  lhsContracting := [2]
  rhsContracting := [1]
  lhsNonContracting := [0, 1]
  rhsNonContracting := [0]
  lhsBatch := []
  rhsBatch := []
  wf := dot_S1024x128x256_S256x256_S1024x128x256_2_1_01_0_n_n_wf
def dot_S1024x128x256_S1024x128x256_S1024x128x128_2_2_1_1_0_0 : DotDims S1024x128x256 S1024x128x256 S1024x128x128 where
  lhsContracting := [2]
  rhsContracting := [2]
  lhsNonContracting := [1]
  rhsNonContracting := [1]
  lhsBatch := [0]
  rhsBatch := [0]
  wf := dot_S1024x128x256_S1024x128x256_S1024x128x128_2_2_1_1_0_0_wf
def dot_S1024x128x128_S1024x128x256_S1024x128x256_2_1_1_2_0_0 : DotDims S1024x128x128 S1024x128x256 S1024x128x256 where
  lhsContracting := [2]
  rhsContracting := [1]
  lhsNonContracting := [1]
  rhsNonContracting := [2]
  lhsBatch := [0]
  rhsBatch := [0]
  wf := dot_S1024x128x128_S1024x128x256_S1024x128x256_2_1_1_2_0_0_wf
def dot_S1024x128x257_S256x257_S1024x128x256_2_1_01_0_n_n : DotDims S1024x128x257 S256x257 S1024x128x256 where
  lhsContracting := [2]
  rhsContracting := [1]
  lhsNonContracting := [0, 1]
  rhsNonContracting := [0]
  lhsBatch := []
  rhsBatch := []
  wf := dot_S1024x128x257_S256x257_S1024x128x256_2_1_01_0_n_n_wf
def dot_S1024x128x256_S1x256_S1024x128x1_2_1_01_0_n_n : DotDims S1024x128x256 S1x256 S1024x128x1 where
  lhsContracting := [2]
  rhsContracting := [1]
  lhsNonContracting := [0, 1]
  rhsNonContracting := [0]
  lhsBatch := []
  rhsBatch := []
  wf := dot_S1024x128x256_S1x256_S1024x128x1_2_1_01_0_n_n_wf

class Facts : Prop extends Facts₀ where

variable [Facts]
-- ==== Proof.Spec.lean ====
/-
  What both programs compute, for one batch item, as plain functions of indices over the extended reals.

  One item is 128 agents. Its observation rows `x n` (64 numbers) are encoded by a rectified affine layer into
  `h1 n` (256 numbers); three more such layers give values `v`, queries `q` and keys `k`. The score of agent `n`
  for agent `m` is the inner product `⟨q n, k m⟩`; it is multiplied by the mask entry, clamped to `[0, hi]`, and
  lowered by `big · (1 - mask)`: that array is the first result. Each of its rows is normalised by a softmax (the
  row's maximum subtracted, exponentials, divided by their sum), the weights average the value rows, the action
  is appended as a 257th coordinate, and three rectified affine layers and a last affine one give one number
  per agent: the second result. Every sum is a finite sum over its own index type, in no particular order.
-/
import Idealize.ShloMosaic.PureOps.Ideal
import Idealize.ShloMosaic.Lib.ValueIdx

noncomputable section

namespace Cert.Spec

open Idealize.ShloMosaic Idealize.ShloMosaic.ValueIdx

/-- The f32 words both programs spell, as the extended reals they denote (none is ever evaluated). -/
def zero : EReal := Ideal.ofBits .f32 0x00000000#32
def one : EReal := Ideal.ofBits .f32 0x3F800000#32
def clampHi : EReal := Ideal.ofBits .f32 0x56A3B584#32
def big : EReal := Ideal.ofBits .f32 0x59FFCB9E#32
def negInf : EReal := Ideal.ofBits .f32 0xFF800000#32

/-- The rectifier: the maximum with zero. -/
def relu (y : EReal) : EReal := max y zero

/-- An affine form: the inner product of a row with a weight row, plus a bias. -/
def lin {K : ℕ} (a w : Fin K → EReal) (b : EReal) : EReal := (∑ k : Fin K, a k * w k) + b

/-- A rectified affine layer applied to each of the 128 rows: output `j` of row `n` pairs the row with weight row `j`. -/
def layer {K N : ℕ} (a : Fin 128 → Fin K → EReal) (W : Fin N → Fin K → EReal) (b : Fin N → EReal) :
    Fin 128 → Fin N → EReal := fun n j => relu (lin (a n) (W j) (b j))

/-- Scores: query row `n` against key row `m`. -/
def scores (q k : Fin 128 → Fin 256 → EReal) : Fin 128 → Fin 128 → EReal :=
  fun n m => ∑ d : Fin 256, q n d * k m d

/-- The masked, clamped scores: `min hi (max 0 (s · mask)) - big · (1 - mask)`. -/
def masked (s mk : Fin 128 → Fin 128 → EReal) : Fin 128 → Fin 128 → EReal :=
  fun n m => min clampHi (max zero (s n m * mk n m)) - big * (one - mk n m)

/-- A row's maximum, as both programs take it: the fold of `max` from `-∞`, once more against `-∞`. -/
def rowMax (r : Fin 128 → EReal) : EReal := max negInf ((Finset.univ : Finset (Fin 128)).fold max negInf r)

/-- The exponentials of a row shifted by its maximum. -/
def expRow (r : Fin 128 → EReal) : Fin 128 → EReal := fun m => Ideal.exp (r m - rowMax r)

/-- The softmax of a row. -/
def softmaxRow (r : Fin 128 → EReal) : Fin 128 → EReal :=
  fun m => Ideal.div (expRow r m) (∑ m' : Fin 128, expRow r m')

/-- Attention: the weights of row `n` average the value rows. -/
def attend (p : Fin 128 → Fin 128 → EReal) (v : Fin 128 → Fin 256 → EReal) : Fin 128 → Fin 256 → EReal :=
  fun n d => ∑ m : Fin 128, p n m * v m d

/-- The attended row with the agent's action appended as coordinate 256. -/
def withAction (h : Fin 128 → Fin 256 → EReal) (act : Fin 128 → EReal) : Fin 128 → Fin 257 → EReal :=
  fun n i => if hi : i.val < 256 then h n ⟨i.val, hi⟩ else act n

/-- The critic's head on rows of 257 numbers: three rectified layers, then one affine output. -/
def critic (c : Fin 128 → Fin 257 → EReal)
    (W1 : Fin 256 → Fin 257 → EReal) (b1 : Fin 256 → EReal) (W2 : Fin 256 → Fin 256 → EReal) (b2 : Fin 256 → EReal)
    (W3 : Fin 256 → Fin 256 → EReal) (b3 : Fin 256 → EReal) (W4 : Fin 256 → EReal) (b4 : EReal) : Fin 128 → EReal :=
  fun n => lin (layer (layer (layer c W1 b1) W2 b2) W3 b3 n) W4 b4

/-- Four items' rows laid end to end: row `n` of item `g` is row `128 g + n` of the 512. -/
def row (g : Fin 4) (n : Fin 128) : Fin 512 := ⟨g.val * 128 + n.val, by have := g.isLt; have := n.isLt; omega⟩

/-! ## Arrays: a stack of `B` items -/

variable {B : ℕ}

/-- A weight matrix `[N, K]` and a bias `[N]` as functions of their coordinates. -/
abbrev mat {N K : ℕ} (W : (⟨2, ![N, K]⟩ : Shape).Idx → EReal) : Fin N → Fin K → EReal := fun j k => W (ix2 j k)
abbrev vec {N : ℕ} (b : (⟨1, ![N]⟩ : Shape).Idx → EReal) : Fin N → EReal := fun j => b (ix1 j)

/-- Item `g` of a stack `[B, 128, D]`. -/
abbrev item {D : ℕ} (X : (⟨3, ![B, 128, D]⟩ : Shape).Idx → EReal) (g : Fin B) : Fin 128 → Fin D → EReal :=
  fun n d => X (ix3 g n d)

/-- The encoded rows of item `g`. -/
def enc (x : (⟨3, ![B, 128, 64]⟩ : Shape).Idx → EReal) (We : (⟨2, ![256, 64]⟩ : Shape).Idx → EReal)
    (be : (⟨1, ![256]⟩ : Shape).Idx → EReal) (g : Fin B) : Fin 128 → Fin 256 → EReal :=
  layer (item x g) (mat We) (vec be)

/-- The first result: the masked scores of every item. Arguments in the programs' order: x, mask, We, be, Wk, bk, Wq, bq. -/
def Gaw (x : (⟨3, ![B, 128, 64]⟩ : Shape).Idx → EReal) (mask : (⟨3, ![B, 128, 128]⟩ : Shape).Idx → EReal)
    (We : (⟨2, ![256, 64]⟩ : Shape).Idx → EReal) (be : (⟨1, ![256]⟩ : Shape).Idx → EReal)
    (Wk : (⟨2, ![256, 256]⟩ : Shape).Idx → EReal) (bk : (⟨1, ![256]⟩ : Shape).Idx → EReal)
    (Wq : (⟨2, ![256, 256]⟩ : Shape).Idx → EReal) (bq : (⟨1, ![256]⟩ : Shape).Idx → EReal) :
    (⟨3, ![B, 128, 128]⟩ : Shape).Idx → EReal :=
  fun i => masked (scores (layer (enc x We be (i 0)) (mat Wq) (vec bq)) (layer (enc x We be (i 0)) (mat Wk) (vec bk)))
    (item mask (i 0)) (i 1) (i 2)

/-- The second result: the critic's value of every agent of every item. Arguments in the programs' order. -/
def Gval (x : (⟨3, ![B, 128, 64]⟩ : Shape).Idx → EReal) (mask : (⟨3, ![B, 128, 128]⟩ : Shape).Idx → EReal)
    (action : (⟨3, ![B, 128, 1]⟩ : Shape).Idx → EReal)
    (We : (⟨2, ![256, 64]⟩ : Shape).Idx → EReal) (be : (⟨1, ![256]⟩ : Shape).Idx → EReal)
    (Wv : (⟨2, ![256, 256]⟩ : Shape).Idx → EReal) (bv : (⟨1, ![256]⟩ : Shape).Idx → EReal)
    (Wk : (⟨2, ![256, 256]⟩ : Shape).Idx → EReal) (bk : (⟨1, ![256]⟩ : Shape).Idx → EReal)
    (Wq : (⟨2, ![256, 256]⟩ : Shape).Idx → EReal) (bq : (⟨1, ![256]⟩ : Shape).Idx → EReal)
    (W1 : (⟨2, ![256, 257]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![1, 256]⟩ : Shape).Idx → EReal) (b4 : (⟨1, ![1]⟩ : Shape).Idx → EReal) :
    (⟨3, ![B, 128, 1]⟩ : Shape).Idx → EReal :=
  fun i => critic
    (withAction
      (attend (fun n => softmaxRow (fun m => Gaw x mask We be Wk bk Wq bq (ix3 (i 0) n m)))
        (layer (enc x We be (i 0)) (mat Wv) (vec bv)))
      (fun n => action (ix3 (i 0) n 0)))
    (mat W1) (vec b1) (mat W2) (vec b2) (mat W3) (vec b3) (mat W4 0) (b4 (ix1 0)) (i 1)

end Cert.Spec

end
-- ==== Proof.KernelScores.lean ====
/-
  The kernel body's first half at the extended reals, read entry by entry: the encoder and the query, key and value
  layers on the 512 flattened rows of a block of four items, and the masked, clamped scores the body stores.
-/
import proofs.«107999_j56143812493412_1_alg».proof.Proof.Gen.KernelIdeal.Skeleton
import proofs.«107999_j56143812493412_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelScores

open Idealize.ShloMosaic Idealize.ShloMosaic.ValueIdx Cert.KernelIdeal Cert.KernelIdeal.Gen Cert.Spec

variable [Cert.KernelIdeal.Facts]

/-! ## The three contractions, entry by entry -/

/-- The left operand's coordinate on its free axis 0 is the result's coordinate 0. -/
theorem lhs64_0 (i : S512x256.Idx) (q : dot_S512x64_S64x256_S512x256_1_0_0_1_n_n.contr.Idx) :
    (dot_S512x64_S64x256_S512x256_1_0_0_1_n_n.lhsIdx i q 0).val = (i 0).val := by
  unfold DotDims.lhsIdx
  rw [dif_neg (show ¬(0 : Fin S512x64.rank) ∈ dot_S512x64_S64x256_S512x256_1_0_0_1_n_n.lhsBatch by decide), dif_pos (show (0 : Fin S512x64.rank) ∈ dot_S512x64_S64x256_S512x256_1_0_0_1_n_n.lhsNonContracting by decide)]
  rfl
/-- The left operand's coordinate on its contracted axis 1 is the contraction index. -/
theorem lhs64_1 (i : S512x256.Idx) (q : dot_S512x64_S64x256_S512x256_1_0_0_1_n_n.contr.Idx) :
    (dot_S512x64_S64x256_S512x256_1_0_0_1_n_n.lhsIdx i q 1).val = (q ⟨0, by decide⟩).val :=
  dot_S512x64_S64x256_S512x256_1_0_0_1_n_n.lhsIdx_val_of_single rfl i q
/-- The right operand's coordinate on its contracted axis 0 is the contraction index. -/
theorem rhs64_0 (i : S512x256.Idx) (q : dot_S512x64_S64x256_S512x256_1_0_0_1_n_n.contr.Idx) :
    (dot_S512x64_S64x256_S512x256_1_0_0_1_n_n.rhsIdx i q 0).val = (q ⟨0, by decide⟩).val :=
  dot_S512x64_S64x256_S512x256_1_0_0_1_n_n.rhsIdx_val_of_single rfl i q
/-- The right operand's coordinate on its free axis 1 is the result's coordinate 1. -/
theorem rhs64_1 (i : S512x256.Idx) (q : dot_S512x64_S64x256_S512x256_1_0_0_1_n_n.contr.Idx) :
    (dot_S512x64_S64x256_S512x256_1_0_0_1_n_n.rhsIdx i q 1).val = (i 1).val := by
  unfold DotDims.rhsIdx
  rw [dif_neg (show ¬(1 : Fin S64x256.rank) ∈ dot_S512x64_S64x256_S512x256_1_0_0_1_n_n.rhsBatch by decide), dif_pos (show (1 : Fin S64x256.rank) ∈ dot_S512x64_S64x256_S512x256_1_0_0_1_n_n.rhsNonContracting by decide)]
  rfl
/-- A [512, 64] by [64, 256] product into the zero accumulator, at row `r` and column `c`: the sum over the
    contraction index of the row's entry times the column's. -/
theorem matmul64_apply {φ₁ φ₂ : FTy} (A : FVec Ideal S512x64 φ₁) (B : FVec Ideal S64x256 φ₂) (r : Fin 512) (c : Fin 256) :
    matmul dot_S512x64_S64x256_S512x256_1_0_0_1_n_n none A B (constant S512x256 .f32 0x00000000#32) (ix2 r c)
      = ∑ k : Fin 64, A (ix2 r k) * B (ix2 k c) := by
  refine (Ideal.matmul_constant_zero_apply dot_S512x64_S64x256_S512x256_1_0_0_1_n_n none A B (ix2 r c)).trans ?_
  rw [← Equiv.sum_comp (contrEquiv1 dot_S512x64_S64x256_S512x256_1_0_0_1_n_n 64 rfl rfl).symm]
  refine Finset.sum_congr rfl fun k _ => ?_
  have hk := contrEquiv1_symm_val dot_S512x64_S64x256_S512x256_1_0_0_1_n_n 64 rfl rfl k
  have el : dot_S512x64_S64x256_S512x256_1_0_0_1_n_n.lhsIdx (ix2 r c) ((contrEquiv1 dot_S512x64_S64x256_S512x256_1_0_0_1_n_n 64 rfl rfl).symm k) = ix2 r k := funext fun a => Fin.ext (by
    match a with
    | ⟨0, _⟩ => exact lhs64_0 _ _
    | ⟨1, _⟩ => exact (lhs64_1 _ _).trans hk)
  have er : dot_S512x64_S64x256_S512x256_1_0_0_1_n_n.rhsIdx (ix2 r c) ((contrEquiv1 dot_S512x64_S64x256_S512x256_1_0_0_1_n_n 64 rfl rfl).symm k) = ix2 k c := funext fun a => Fin.ext (by
    match a with
    | ⟨0, _⟩ => exact (rhs64_0 _ _).trans hk
    | ⟨1, _⟩ => exact rhs64_1 _ _)
  rw [el, er]

/-- The left operand's coordinate on its free axis 0 is the result's coordinate 0. -/
theorem lhs256_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
/-- The left operand's coordinate on its contracted axis 1 is the contraction index. -/
theorem lhs256_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
/-- The right operand's coordinate on its contracted axis 0 is the contraction index. -/
theorem rhs256_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
/-- The right operand's coordinate on its free axis 1 is the result's coordinate 1. -/
theorem rhs256_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- A [512, 256] by [256, 256] product into the zero accumulator, at row `r` and column `c`: the sum over the
    contraction index of the row's entry times the column's. -/
theorem matmul256_apply {φ₁ φ₂ : FTy} (A : FVec Ideal S512x256 φ₁) (B : FVec Ideal S256x256 φ₂) (r : Fin 512) (c : Fin 256) :
    matmul dot_S512x256_S256x256_S512x256_1_0_0_1_n_n none A B (constant S512x256 .f32 0x00000000#32) (ix2 r c)
      = ∑ k : Fin 256, A (ix2 r k) * B (ix2 k c) := by
  refine (Ideal.matmul_constant_zero_apply dot_S512x256_S256x256_S512x256_1_0_0_1_n_n none A B (ix2 r c)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 r c) ((contrEquiv1 dot_S512x256_S256x256_S512x256_1_0_0_1_n_n 256 rfl rfl).symm k) = ix2 r k := funext fun a => Fin.ext (by
    match a with
    | ⟨0, _⟩ => exact lhs256_0 _ _
    | ⟨1, _⟩ => exact (lhs256_1 _ _).trans hk)
  have er : dot_S512x256_S256x256_S512x256_1_0_0_1_n_n.rhsIdx (ix2 r c) ((contrEquiv1 dot_S512x256_S256x256_S512x256_1_0_0_1_n_n 256 rfl rfl).symm k) = ix2 k c := funext fun a => Fin.ext (by
    match a with
    | ⟨0, _⟩ => exact (rhs256_0 _ _).trans hk
    | ⟨1, _⟩ => exact rhs256_1 _ _)
  rw [el, er]

/-- The left operand's coordinate on its batch axis 0 is the result's coordinate 0. -/
theorem lhsB_0 (i : S4x128x128.Idx) (q : dot_S4x128x256_S4x128x256_S4x128x128_2_2_1_1_0_0.contr.Idx) :
    (dot_S4x128x256_S4x128x256_S4x128x128_2_2_1_1_0_0.lhsIdx i q 0).val = (i 0).val := by
  unfold DotDims.lhsIdx
  rw [dif_pos (show (0 : Fin S4x128x256.rank) ∈ dot_S4x128x256_S4x128x256_S4x128x128_2_2_1_1_0_0.lhsBatch by decide)]
  rfl
/-- The left operand's coordinate on its free axis 1 is the result's coordinate 1. -/
theorem lhsB_1 (i : S4x128x128.Idx) (q : dot_S4x128x256_S4x128x256_S4x128x128_2_2_1_1_0_0.contr.Idx) :
    (dot_S4x128x256_S4x128x256_S4x128x128_2_2_1_1_0_0.lhsIdx i q 1).val = (i 1).val := by
  unfold DotDims.lhsIdx
  rw [dif_neg (show ¬(1 : Fin S4x128x256.rank) ∈ dot_S4x128x256_S4x128x256_S4x128x128_2_2_1_1_0_0.lhsBatch by decide), dif_pos (show (1 : Fin S4x128x256.rank) ∈ dot_S4x128x256_S4x128x256_S4x128x128_2_2_1_1_0_0.lhsNonContracting by decide)]
  rfl
/-- The left operand's coordinate on its contracted axis 2 is the contraction index. -/
theorem lhsB_2 (i : S4x128x128.Idx) (q : dot_S4x128x256_S4x128x256_S4x128x128_2_2_1_1_0_0.contr.Idx) :
    (dot_S4x128x256_S4x128x256_S4x128x128_2_2_1_1_0_0.lhsIdx i q 2).val = (q ⟨0, by decide⟩).val :=
  dot_S4x128x256_S4x128x256_S4x128x128_2_2_1_1_0_0.lhsIdx_val_of_single rfl i q
/-- The right operand's coordinate on its batch axis 0 is the result's coordinate 0. -/
theorem rhsB_0 (i : S4x128x128.Idx) (q : dot_S4x128x256_S4x128x256_S4x128x128_2_2_1_1_0_0.contr.Idx) :
    (dot_S4x128x256_S4x128x256_S4x128x128_2_2_1_1_0_0.rhsIdx i q 0).val = (i 0).val := by
  unfold DotDims.rhsIdx
  rw [dif_pos (show (0 : Fin S4x128x256.rank) ∈ dot_S4x128x256_S4x128x256_S4x128x128_2_2_1_1_0_0.rhsBatch by decide)]
  rfl
/-- The right operand's coordinate on its free axis 1 is the result's coordinate 2. -/
theorem rhsB_1 (i : S4x128x128.Idx) (q : dot_S4x128x256_S4x128x256_S4x128x128_2_2_1_1_0_0.contr.Idx) :
    (dot_S4x128x256_S4x128x256_S4x128x128_2_2_1_1_0_0.rhsIdx i q 1).val = (i 2).val := by
  unfold DotDims.rhsIdx
  rw [dif_neg (show ¬(1 : Fin S4x128x256.rank) ∈ dot_S4x128x256_S4x128x256_S4x128x128_2_2_1_1_0_0.rhsBatch by decide), dif_pos (show (1 : Fin S4x128x256.rank) ∈ dot_S4x128x256_S4x128x256_S4x128x128_2_2_1_1_0_0.rhsNonContracting by decide)]
  rfl
/-- The right operand's coordinate on its contracted axis 2 is the contraction index. -/
theorem rhsB_2 (i : S4x128x128.Idx) (q : dot_S4x128x256_S4x128x256_S4x128x128_2_2_1_1_0_0.contr.Idx) :
    (dot_S4x128x256_S4x128x256_S4x128x128_2_2_1_1_0_0.rhsIdx i q 2).val = (q ⟨0, by decide⟩).val :=
  dot_S4x128x256_S4x128x256_S4x128x128_2_2_1_1_0_0.rhsIdx_val_of_single rfl i q
/-- The batched product of queries and keys into the zero accumulator, at item `g`, query row `n` and key row `m`:
    the inner product of the two rows of item `g`. -/
theorem bmm_apply {φ₁ φ₂ : FTy} (Q : FVec Ideal S4x128x256 φ₁) (K : FVec Ideal S4x128x256 φ₂) (g : Fin 4) (n m : Fin 128) :
    matmul dot_S4x128x256_S4x128x256_S4x128x128_2_2_1_1_0_0 none Q K (constant S4x128x128 .f32 0x00000000#32) (ix3 g n m)
      = ∑ d : Fin 256, Q (ix3 g n d) * K (ix3 g m d) := by
  refine (Ideal.matmul_constant_zero_apply dot_S4x128x256_S4x128x256_S4x128x128_2_2_1_1_0_0 none Q K (ix3 g n m)).trans ?_
  rw [← Equiv.sum_comp (contrEquiv1 dot_S4x128x256_S4x128x256_S4x128x128_2_2_1_1_0_0 256 rfl rfl).symm]
  refine Finset.sum_congr rfl fun k _ => ?_
  have hk := contrEquiv1_symm_val dot_S4x128x256_S4x128x256_S4x128x128_2_2_1_1_0_0 256 rfl rfl k
  have el : dot_S4x128x256_S4x128x256_S4x128x128_2_2_1_1_0_0.lhsIdx (ix3 g n m) ((contrEquiv1 dot_S4x128x256_S4x128x256_S4x128x128_2_2_1_1_0_0 256 rfl rfl).symm k) = ix3 g n k := funext fun a => Fin.ext (by
    match a with
    | ⟨0, _⟩ => exact lhsB_0 _ _
    | ⟨1, _⟩ => exact lhsB_1 _ _
    | ⟨2, _⟩ => exact (lhsB_2 _ _).trans hk)
  have er : dot_S4x128x256_S4x128x256_S4x128x128_2_2_1_1_0_0.rhsIdx (ix3 g n m) ((contrEquiv1 dot_S4x128x256_S4x128x256_S4x128x128_2_2_1_1_0_0 256 rfl rfl).symm k) = ix3 g m k := funext fun a => Fin.ext (by
    match a with
    | ⟨0, _⟩ => exact rhsB_0 _ _
    | ⟨1, _⟩ => exact rhsB_1 _ _
    | ⟨2, _⟩ => exact (rhsB_2 _ _).trans hk)
  rw [el, er]

/-! ## The layer shape -/

/-- The layer shape on 512 rows of 64 numbers: the product with the transposed weight, plus the bias row on every
    row, rectified, is at row `r` and output `c` the rectified affine form of the row against weight row `c`. -/
theorem layer64_apply {φ : FTy} (A : FVec Ideal S512x64 φ) (W : Vec Ideal S256x64 .f32) (b : Vec Ideal S256 .f32)
    (h1 : FTy.bits .bf16 < FTy.bits .f32) (h2 : S256x64.Transposes [1, 0] S64x256) (h3 : S256.ShapeCasts S1x256)
    (h4 : S1x256.Broadcasts S512x256) (r : Fin 512) (c : Fin 256) :
    maximumf (addf (matmul dot_S512x64_S64x256_S512x256_1_0_0_1_n_n none A (transpose S64x256 [1, 0] (truncf .bf16 W h1) h2) (constant S512x256 .f32 0x00000000#32))
        (broadcastTo S512x256 (shapeCast S1x256 b h3) h4)) (broadcast S512x256 (Scalar.ofBits .f32 0x00000000#32)) (ix2 r c)
      = relu (lin (fun k => A (ix2 r k)) (fun k => W (ix2 c k)) (b (ix1 c))) := by
  show max (_ + _) _ = max ((∑ k : Fin 64, A (ix2 r k) * W (ix2 c k)) + b (ix1 c)) zero
  refine congrArg₂ max (congrArg₂ (· + ·) ?_ ?_) rfl
  · refine (matmul64_apply A _ r c).trans (Finset.sum_congr rfl fun k _ => ?_)
    exact congrArg (A (ix2 r k) * ·) ((transpose_ix2_apply _ h2 k c).trans rfl)
  · exact (broadcastTo_1b_ab_apply _ h4 r c).trans (shapeCast_a_1a_apply b h3 0 c)

/-- The layer shape on 512 rows of 256 numbers: the product with the transposed weight, plus the bias row on every
    row, rectified, is at row `r` and output `c` the rectified affine form of the row against weight row `c`. -/
theorem layer256_apply {φ : FTy} (A : FVec Ideal S512x256 φ) (W : Vec Ideal S256x256 .f32) (b : Vec Ideal S256 .f32)
    (h1 : FTy.bits .bf16 < FTy.bits .f32) (h2 : S256x256.Transposes [1, 0] S256x256) (h3 : S256.ShapeCasts S1x256)
    (h4 : S1x256.Broadcasts S512x256) (r : Fin 512) (c : Fin 256) :
    maximumf (addf (matmul dot_S512x256_S256x256_S512x256_1_0_0_1_n_n none A (transpose S256x256 [1, 0] (truncf .bf16 W h1) h2) (constant S512x256 .f32 0x00000000#32))
        (broadcastTo S512x256 (shapeCast S1x256 b h3) h4)) (broadcast S512x256 (Scalar.ofBits .f32 0x00000000#32)) (ix2 r c)
      = relu (lin (fun k => A (ix2 r k)) (fun k => W (ix2 c k)) (b (ix1 c))) := by
  show max (_ + _) _ = max ((∑ k : Fin 256, A (ix2 r k) * W (ix2 c k)) + b (ix1 c)) zero
  refine congrArg₂ max (congrArg₂ (· + ·) ?_ ?_) rfl
  · refine (matmul256_apply A _ r c).trans (Finset.sum_congr rfl fun k _ => ?_)
    exact congrArg (A (ix2 r k) * ·) ((transpose_ix2_apply _ h2 k c).trans rfl)
  · exact (broadcastTo_1b_ab_apply _ h4 r c).trans (shapeCast_a_1a_apply b h3 0 c)

/-! ## The flattening of four items' rows and its inverse -/

/-- The block's rows laid end to end: row `128 g + n` of the 512 is row `n` of item `g`. -/
theorem flatten64_apply {α : Type} (v : S4x128x64.Idx → α) (h : S4x128x64.ShapeCasts S512x64) (g : Fin 4) (n : Fin 128) (d : Fin 64) :
    shapeCast S512x64 v h (ix2 (row g n) d) = v (ix3 g n d) :=
  shapeCast_apply v h _ _ (by
    rw [Shape.rowMajor_val_two, Shape.rowMajor_val_three]
    rfl)

/-- The 512 rows cut back into four items: row `n` of item `g` is row `128 g + n` of the 512. -/
theorem unflatten256_apply {α : Type} (v : S512x256.Idx → α) (h : S512x256.ShapeCasts S4x128x256) (g : Fin 4) (n : Fin 128) (d : Fin 256) :
    shapeCast S4x128x256 v h (ix3 g n d) = v (ix2 (row g n) d) :=
  shapeCast_apply v h _ _ (by
    rw [Shape.rowMajor_val_two, Shape.rowMajor_val_three]
    rfl)

/-! ## The mask and the clamp -/

/-- The scores times the mask, clamped between zero and the upper bound, lowered by the large constant where the mask
    is off: entry by entry the specification's masked score. -/
theorem masked_apply (S : FVec Ideal S4x128x128 .f32) (M : FVec Ideal S4x128x128 .f32) (i : S4x128x128.Idx) :
    subf (minimumf (broadcast S4x128x128 (Scalar.ofBits .f32 0x56A3B584#32))
        (maximumf (broadcast S4x128x128 (Scalar.ofBits .f32 0x00000000#32)) (mulf S M)))
      (mulf (broadcast S4x128x128 (Scalar.ofBits .f32 0x59FFCB9E#32))
        (subf (broadcast S4x128x128 (Scalar.ofBits .f32 0x3F800000#32)) M)) i
      = min clampHi (max zero (S i * M i)) - big * (one - M i) := rfl

/-! ## The body's values -/

/-- The encoder's output at row `n` of item `g` of the block. -/
theorem pay2_apply (v0 : Vec Ideal S4x128x64 .f32) (v3 : Vec Ideal S256x64 .f32) (v5 : Vec Ideal S256 .f32)
    (g : Fin 4) (n : Fin 128) (j : Fin 256) :
    k0_pay2 (F := Ideal) v0 v3 v5 (ix2 (row g n) j) = enc (B := 4) v0 v3 v5 g n j := by
  unfold k0_pay2
  refine (layer64_apply (shapeCast S512x64 (truncf .bf16 v0 bitsLt_bf16_f32) shapeCasts_S4x128x64_S512x64) v3 v5
    bitsLt_bf16_f32 transposes_S256x64_p1_0_S64x256 shapeCasts_S256_S1x256 broadcasts_S1x256_S512x256 (row g n) j).trans ?_
  exact congrArg (fun a => relu (lin a (fun k => v3 (ix2 j k)) (v5 (ix1 j))))
    (funext fun k => (flatten64_apply _ shapeCasts_S4x128x64_S512x64 g n k).trans rfl)

/-- The value layer over the encoder's output. -/
theorem pay3_apply (v0 : Vec Ideal S4x128x64 .f32) (v3 : Vec Ideal S256x64 .f32) (v5 : Vec Ideal S256 .f32)
    (v14 : Vec Ideal S256x256 .f32) (v16 : Vec Ideal S256 .f32) (g : Fin 4) (n : Fin 128) (j : Fin 256) :
    k0_pay3 (F := Ideal) v0 v3 v5 v14 v16 (ix2 (row g n) j) = layer (enc (B := 4) v0 v3 v5 g) (mat v14) (vec v16) n j := by
  unfold k0_pay3
  refine (layer256_apply (k0_pay2 v0 v3 v5) v14 v16
    bitsLt_bf16_f32 transposes_S256x256_p1_0_S256x256 shapeCasts_S256_S1x256 broadcasts_S1x256_S512x256 (row g n) j).trans ?_
  exact congrArg (fun a => relu (lin a (fun k => v14 (ix2 j k)) (v16 (ix1 j))))
    (funext fun k => pay2_apply v0 v3 v5 g n k)

/-- The query layer over the encoder's output. -/
theorem pay4_apply (v0 : Vec Ideal S4x128x64 .f32) (v3 : Vec Ideal S256x64 .f32) (v5 : Vec Ideal S256 .f32)
    (v24 : Vec Ideal S256x256 .f32) (v26 : Vec Ideal S256 .f32) (g : Fin 4) (n : Fin 128) (j : Fin 256) :
    k0_pay4 (F := Ideal) v0 v3 v5 v24 v26 (ix2 (row g n) j) = layer (enc (B := 4) v0 v3 v5 g) (mat v24) (vec v26) n j := by
  unfold k0_pay4
  refine (layer256_apply (k0_pay2 v0 v3 v5) v24 v26
    bitsLt_bf16_f32 transposes_S256x256_p1_0_S256x256 shapeCasts_S256_S1x256 broadcasts_S1x256_S512x256 (row g n) j).trans ?_
  exact congrArg (fun a => relu (lin a (fun k => v24 (ix2 j k)) (v26 (ix1 j))))
    (funext fun k => pay2_apply v0 v3 v5 g n k)

/-- What the body stores to the scores' window, over the blocks of x, mask, We, be, Wk, bk, Wq, bq: the masked scores
    of the block's four items. -/
theorem ker_aw (x0 : Vec Ideal S4x128x64 .f32) (x1 : Vec Ideal S4x128x128 .f32) (x3 : Vec Ideal S256x64 .f32)
    (x4 : Vec Ideal S256 .f32) (x7 : Vec Ideal S256x256 .f32) (x8 : Vec Ideal S256 .f32)
    (x9 : Vec Ideal S256x256 .f32) (x10 : Vec Ideal S256 .f32) :
    k0_pay6 (F := Ideal) (k0_pay2 x0 x3 x4) (k0_pay4 x0 x3 x4 x9 x10) x8 (k0_pay5 x7) x1
      = Gaw (B := 4) x0 x1 x3 x4 x7 x8 x9 x10 := by
  funext y
  obtain ⟨g, n, m, rfl⟩ : ∃ g n m, y = ix3 g n m := ⟨y 0, y 1, y 2, eq_ix3 y⟩
  unfold k0_pay6 k0_pay5
  refine (masked_apply _ x1 (ix3 g n m)).trans ?_
  show _ = min clampHi (max zero (scores (layer (enc (B := 4) x0 x3 x4 g) (mat x9) (vec x10))
      (layer (enc (B := 4) x0 x3 x4 g) (mat x7) (vec x8)) n m * x1 (ix3 g n m))) - big * (one - x1 (ix3 g n m))
  refine congrArg (fun s => min clampHi (max zero (s * x1 (ix3 g n m))) - big * (one - x1 (ix3 g n m))) ?_
  refine (bmm_apply _ _ g n m).trans (Finset.sum_congr rfl fun d _ => congrArg₂ (· * ·) ?_ ?_)
  · exact (unflatten256_apply _ shapeCasts_S512x256_S4x128x256 g n d).trans (pay4_apply x0 x3 x4 x9 x10 g n d)
  · exact (unflatten256_apply _ shapeCasts_S512x256_S4x128x256 g m d).trans
      ((layer256_apply (k0_pay2 x0 x3 x4) x7 x8
        bitsLt_bf16_f32 transposes_S256x256_p1_0_S256x256 shapeCasts_S256_S1x256 broadcasts_S1x256_S512x256 (row g m) d).trans
      (congrArg (fun a => relu (lin a (fun k => x7 (ix2 d k)) (x8 (ix1 d))))
        (funext fun k => pay2_apply x0 x3 x4 g m k)))

end Cert.KernelScores

end
-- ==== Proof.KernelCritic.lean ====
/-
  The kernel body's second half at the extended reals, read entry by entry, for ANY arrays in the places of the
  values computed before it: the softmax of the stored scores' rows and the attention product; and the critic's head
  on the attended rows with the action appended.
-/
import proofs.«107999_j56143812493412_1_alg».proof.Proof.Gen.KernelIdeal.Skeleton
import proofs.«107999_j56143812493412_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelCritic

open Idealize.ShloMosaic Idealize.ShloMosaic.ValueIdx Cert.KernelIdeal Cert.KernelIdeal.Gen Cert.Spec

variable [Cert.KernelIdeal.Facts]

/-! ## A product of two matrices read at an entry -/

/-- On the left operand of a rows-by-columns product, axis 0 carries the output's row. -/
theorem plain_lhs_0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On the left operand of a rows-by-columns product, axis 1 carries the summation index. -/
theorem plain_lhs_1 {M K N : ℕ} (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- On the right operand of a rows-by-columns product, axis 0 carries the summation index. -/
theorem plain_rhs_0 {M K N : ℕ} (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- On the right operand of a rows-by-columns product, axis 1 carries the output's column. -/
theorem plain_rhs_1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an M×K matrix by a K×N matrix, accumulated from zero: entry (r, c) is the sum over k of
    the products of entry (r, k) and entry (k, c). -/
theorem plain_matmul_apply {M K N : ℕ} {φ₁ φ₂ : FTy} (A : FVec Ideal ⟨2, ![M, K]⟩ φ₁) (B : FVec Ideal ⟨2, ![K, N]⟩ φ₂)
    (r : Fin M) (c : Fin N) :
    matmul (DotDims.plain M K N) none A B (constant ⟨2, ![M, N]⟩ .f32 0x00000000#32) (ix2 r c)
      = ∑ k : Fin K, A (ix2 r k) * B (ix2 k c) := by
  refine (Ideal.matmul_constant_zero_apply (DotDims.plain M K N) none A B (ix2 r c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 _ _).trans hk
      | ⟨1, _⟩ => exact plain_rhs_1 _ _)
  rw [el, er]

/-- The first critic product's dimension numbers are the rows-by-columns ones. -/
theorem dot1_eq : dot_S512x257_S257x256_S512x256_1_0_0_1_n_n = DotDims.plain 512 257 256 := rfl
/-- The second and third critic products' dimension numbers are the rows-by-columns ones. -/
theorem dot2_eq : dot_S512x256_S256x256_S512x256_1_0_0_1_n_n = DotDims.plain 512 256 256 := rfl
/-- The last critic product's dimension numbers are the rows-by-columns ones. -/
theorem dot4_eq : dot_S512x256_S256x1_S512x1_1_0_0_1_n_n = DotDims.plain 512 256 1 := rfl

/-! ## The batched product of the attention weights with the value rows -/

/-- On the weights, axis 0 carries the output's item. -/
theorem att_lhs_0 (i : S4x128x256.Idx) (q : dot_S4x128x128_S4x128x256_S4x128x256_2_1_1_2_0_0.contr.Idx) :
    (dot_S4x128x128_S4x128x256_S4x128x256_2_1_1_2_0_0.lhsIdx i q 0).val = (i 0).val := by
  unfold DotDims.lhsIdx
  rw [dif_pos (show (0 : Fin S4x128x128.rank) ∈ dot_S4x128x128_S4x128x256_S4x128x256_2_1_1_2_0_0.lhsBatch by decide)]
  rfl

/-- On the weights, axis 1 carries the output's row. -/
theorem att_lhs_1 (i : S4x128x256.Idx) (q : dot_S4x128x128_S4x128x256_S4x128x256_2_1_1_2_0_0.contr.Idx) :
    (dot_S4x128x128_S4x128x256_S4x128x256_2_1_1_2_0_0.lhsIdx i q 1).val = (i 1).val := by
  unfold DotDims.lhsIdx
  rw [dif_neg (show ¬(1 : Fin S4x128x128.rank) ∈ dot_S4x128x128_S4x128x256_S4x128x256_2_1_1_2_0_0.lhsBatch by decide),
    dif_pos (show (1 : Fin S4x128x128.rank) ∈ dot_S4x128x128_S4x128x256_S4x128x256_2_1_1_2_0_0.lhsNonContracting by decide)]
  rfl

/-- On the weights, axis 2 carries the summation index. -/
theorem att_lhs_2 (i : S4x128x256.Idx) (q : dot_S4x128x128_S4x128x256_S4x128x256_2_1_1_2_0_0.contr.Idx) :
    (dot_S4x128x128_S4x128x256_S4x128x256_2_1_1_2_0_0.lhsIdx i q 2).val = (q ⟨0, by decide⟩).val :=
  dot_S4x128x128_S4x128x256_S4x128x256_2_1_1_2_0_0.lhsIdx_val_of_single rfl i q

/-- On the values, axis 0 carries the output's item. -/
theorem att_rhs_0 (i : S4x128x256.Idx) (q : dot_S4x128x128_S4x128x256_S4x128x256_2_1_1_2_0_0.contr.Idx) :
    (dot_S4x128x128_S4x128x256_S4x128x256_2_1_1_2_0_0.rhsIdx i q 0).val = (i 0).val := by
  unfold DotDims.rhsIdx
  rw [dif_pos (show (0 : Fin S4x128x256.rank) ∈ dot_S4x128x128_S4x128x256_S4x128x256_2_1_1_2_0_0.rhsBatch by decide)]
  rfl

/-- On the values, axis 1 carries the summation index. -/
theorem att_rhs_1 (i : S4x128x256.Idx) (q : dot_S4x128x128_S4x128x256_S4x128x256_2_1_1_2_0_0.contr.Idx) :
    (dot_S4x128x128_S4x128x256_S4x128x256_2_1_1_2_0_0.rhsIdx i q 1).val = (q ⟨0, by decide⟩).val :=
  dot_S4x128x128_S4x128x256_S4x128x256_2_1_1_2_0_0.rhsIdx_val_of_single rfl i q

/-- On the values, axis 2 carries the output's coordinate. -/
theorem att_rhs_2 (i : S4x128x256.Idx) (q : dot_S4x128x128_S4x128x256_S4x128x256_2_1_1_2_0_0.contr.Idx) :
    (dot_S4x128x128_S4x128x256_S4x128x256_2_1_1_2_0_0.rhsIdx i q 2).val = (i 2).val := by
  unfold DotDims.rhsIdx
  rw [dif_neg (show ¬(2 : Fin S4x128x256.rank) ∈ dot_S4x128x128_S4x128x256_S4x128x256_2_1_1_2_0_0.rhsBatch by decide),
    dif_pos (show (2 : Fin S4x128x256.rank) ∈ dot_S4x128x128_S4x128x256_S4x128x256_2_1_1_2_0_0.rhsNonContracting by decide)]
  rfl

/-- Item by item, the product of a 128×128 matrix of weights by a 128×256 matrix of values, accumulated from zero:
    entry (n, d) of item g is the sum over m of weight (g, n, m) times value (g, m, d). -/
theorem att_matmul_apply {φ₁ φ₂ : FTy} (P : FVec Ideal S4x128x128 φ₁) (V : FVec Ideal S4x128x256 φ₂)
    (g : Fin 4) (n : Fin 128) (d : Fin 256) :
    matmul dot_S4x128x128_S4x128x256_S4x128x256_2_1_1_2_0_0 none P V (constant S4x128x256 .f32 0x00000000#32) (ix3 g n d)
      = ∑ m : Fin 128, P (ix3 g n m) * V (ix3 g m d) := by
  refine (Ideal.matmul_constant_zero_apply dot_S4x128x128_S4x128x256_S4x128x256_2_1_1_2_0_0 none P V (ix3 g n d)).trans ?_
  rw [← Equiv.sum_comp (contrEquiv1 dot_S4x128x128_S4x128x256_S4x128x256_2_1_1_2_0_0 128 rfl rfl).symm]
  refine Finset.sum_congr rfl fun m _ => ?_
  have hk := contrEquiv1_symm_val dot_S4x128x128_S4x128x256_S4x128x256_2_1_1_2_0_0 128 rfl rfl m
  have el : dot_S4x128x128_S4x128x256_S4x128x256_2_1_1_2_0_0.lhsIdx (ix3 g n d)
      ((contrEquiv1 dot_S4x128x128_S4x128x256_S4x128x256_2_1_1_2_0_0 128 rfl rfl).symm m) = ix3 g n m :=
    funext fun a => Fin.ext (by
      match a with
      | ⟨0, _⟩ => exact att_lhs_0 _ _
      | ⟨1, _⟩ => exact att_lhs_1 _ _
      | ⟨2, _⟩ => exact (att_lhs_2 _ _).trans hk)
  have er : dot_S4x128x128_S4x128x256_S4x128x256_2_1_1_2_0_0.rhsIdx (ix3 g n d)
      ((contrEquiv1 dot_S4x128x128_S4x128x256_S4x128x256_2_1_1_2_0_0 128 rfl rfl).symm m) = ix3 g m d :=
    funext fun a => Fin.ext (by
      match a with
      | ⟨0, _⟩ => exact att_rhs_0 _ _
      | ⟨1, _⟩ => exact (att_rhs_1 _ _).trans hk
      | ⟨2, _⟩ => exact att_rhs_2 _ _)
  rw [el, er]

/-! ## Reductions along a row, and a row's value laid back over its columns -/

/-- The index over row (g, n) with k put back on the last axis is (g, n, k). -/
theorem lift_last (h : S4x128x128.Reduces [2] S4x128) (g : Fin 4) (n : Fin 128) (k : Fin (S4x128x128.size 2)) :
    h.lift (ix2 g n) k = ix3 g n ⟨k.val, k.isLt⟩ := by
  funext c
  apply Fin.ext
  match c with
  | ⟨0, _⟩ => rfl
  | ⟨1, _⟩ => rfl
  | ⟨2, _⟩ => rfl

/-- The maximum reduction along the last axis, at row (g, n): the fold of max from -∞ over the row's entries. -/
theorem rowfold_apply (A : FVec Ideal S4x128x128 .f32) (h : S4x128x128.Reduces [2] S4x128) (hφ : FKind.Formats .f32)
    (hacc : (0xFF800000#32 : BitVec 32) = FKind.maximumf.neutral .f32 hφ) (g : Fin 4) (n : Fin 128) :
    multiReduction .maximumf [2] S4x128 A 0xFF800000#32 h hφ hacc (ix2 g n)
      = (Finset.univ : Finset (Fin 128)).fold max negInf (fun m => A (ix3 g n m)) := by
  refine (Ideal.multiReduction_maximumf_single A 0xFF800000#32 h hφ hacc (ix2 g n)).trans ?_
  show (Finset.univ : Finset (Fin 128)).fold max negInf (fun k => A (h.lift (ix2 g n) k)) = _
  refine congrArg (fun f => Finset.fold max negInf f Finset.univ) (funext fun k => ?_)
  exact congrArg A (lift_last h g n k)

/-- The sum reduction along the last axis, at row (g, n): the sum of the row's entries. -/
theorem rowsum_apply (E : FVec Ideal S4x128x128 .f32) (h : S4x128x128.Reduces [2] S4x128) (hφ : FKind.Formats .f32)
    (hacc : (0x00000000#32 : BitVec 32) = FKind.add.neutral .f32 hφ) (g : Fin 4) (n : Fin 128) :
    multiReduction .add [2] S4x128 E 0x00000000#32 h hφ hacc (ix2 g n) = ∑ m : Fin 128, E (ix3 g n m) := by
  refine (Ideal.multiReduction_add_single E 0x00000000#32 h hφ hacc (ix2 g n)).trans ?_
  show ∑ k : Fin 128, E (h.lift (ix2 g n) k) = _
  exact Finset.sum_congr rfl fun k _ => congrArg E (lift_last h g n k)

/-- A value per row, given a unit last axis and laid over the 128 columns, reads the row's value at every column. -/
theorem keepdims_apply {α : Type} (v : S4x128.Idx → α) (hs : S4x128.ShapeCasts S4x128x1) (hb : S4x128x1.Broadcasts S4x128x128)
    (g : Fin 4) (n : Fin 128) (m : Fin 128) :
    broadcastTo S4x128x128 (shapeCast S4x128x1 v hs) hb (ix3 g n m) = v (ix2 g n) := by
  refine (broadcastTo_apply _ hb (ix3 g n m) (ix3 g n (0 : Fin 1)) fun a => ?_).trans ?_
  · match a with
    | ⟨0, _⟩ => rfl
    | ⟨1, _⟩ => rfl
    | ⟨2, _⟩ => rfl
  · refine shapeCast_apply v hs (ix3 g n (0 : Fin 1)) (ix2 g n) ?_
    rw [Shape.rowMajor_val_two, Shape.rowMajor_val_three]
    show g.val * 128 + n.val = (g.val * 128 + n.val) * 1 + 0
    omega

/-! ## The four items' rows laid end to end -/

/-- The 512 flattened rows read back item by item: row n of item g is row 128 g + n. -/
theorem unflat_apply {α : Type} {D : ℕ} (v : (⟨2, ![512, D]⟩ : Shape).Idx → α)
    (h : (⟨2, ![512, D]⟩ : Shape).ShapeCasts ⟨3, ![4, 128, D]⟩) (g : Fin 4) (n : Fin 128) (d : Fin D) :
    shapeCast ⟨3, ![4, 128, D]⟩ v h (ix3 g n d) = v (ix2 (row g n) d) := by
  refine shapeCast_apply v h (ix3 g n d) (ix2 (row g n) d) ?_
  rw [Shape.rowMajor_val_two, Shape.rowMajor_val_three]
  rfl

/-- The items' rows flattened to 512: row 128 g + n is row n of item g. -/
theorem flat_apply {α : Type} {D : ℕ} (v : (⟨3, ![4, 128, D]⟩ : Shape).Idx → α)
    (h : (⟨3, ![4, 128, D]⟩ : Shape).ShapeCasts ⟨2, ![512, D]⟩) (g : Fin 4) (n : Fin 128) (d : Fin D) :
    shapeCast ⟨2, ![512, D]⟩ v h (ix2 (row g n) d) = v (ix3 g n d) := by
  refine shapeCast_apply v h (ix2 (row g n) d) (ix3 g n d) ?_
  rw [Shape.rowMajor_val_two, Shape.rowMajor_val_three]
  rfl

/-! ## The softmax of the rows of a [4, 128, 128] array, as the body computes it -/

section Softmax

variable (A : FVec Ideal S4x128x128 .f32) (hr : S4x128x128.Reduces [2] S4x128) (hφ : FKind.Formats .f32)
  (hmax : (0xFF800000#32 : BitVec 32) = FKind.maximumf.neutral .f32 hφ)
  (hadd : (0x00000000#32 : BitVec 32) = FKind.add.neutral .f32 hφ)
  (hs : S4x128.ShapeCasts S4x128x1) (hb : S4x128x1.Broadcasts S4x128x128)

/-- The rows' maxima as the body takes them: the fold of max from -∞ along each row, once more against -∞. -/
def kRowMax : FVec Ideal S4x128 .f32 :=
  maximumf (broadcast S4x128 (Scalar.ofBits .f32 0xFF800000#32))
    (multiReduction .maximumf [2] S4x128 A 0xFF800000#32 hr hφ hmax)

/-- At row (g, n) that is the specification's maximum of the row. -/
theorem kRowMax_apply (g : Fin 4) (n : Fin 128) :
    kRowMax A hr hφ hmax (ix2 g n) = rowMax (fun m => A (ix3 g n m)) := by
  unfold kRowMax rowMax
  exact congrArg (max negInf) (rowfold_apply A hr hφ hmax g n)

/-- The exponentials of the entries, each shifted by its row's maximum. -/
def kExp : FVec Ideal S4x128x128 .f32 :=
  exp (subf A (broadcastTo S4x128x128 (shapeCast S4x128x1 (kRowMax A hr hφ hmax) hs) hb))

/-- At (g, n, m) that is the specification's shifted exponential of row (g, n) at column m. -/
theorem kExp_apply (g : Fin 4) (n : Fin 128) (m : Fin 128) :
    kExp A hr hφ hmax hs hb (ix3 g n m) = expRow (fun m' => A (ix3 g n m')) m := by
  unfold kExp expRow
  refine congrArg (fun x => Ideal.exp (A (ix3 g n m) - x)) ?_
  exact (keepdims_apply _ hs hb g n m).trans (kRowMax_apply A hr hφ hmax g n)

/-- The weights: each exponential divided by the sum of its row's exponentials. -/
def kSoft : FVec Ideal S4x128x128 .f32 :=
  divf (kExp A hr hφ hmax hs hb)
    (broadcastTo S4x128x128
      (shapeCast S4x128x1 (multiReduction .add [2] S4x128 (kExp A hr hφ hmax hs hb) 0x00000000#32 hr hφ hadd) hs) hb)

/-- At (g, n, m) that is the specification's softmax of row (g, n) at column m. -/
theorem kSoft_apply (g : Fin 4) (n : Fin 128) (m : Fin 128) :
    kSoft A hr hφ hmax hadd hs hb (ix3 g n m) = softmaxRow (fun m' => A (ix3 g n m')) m := by
  unfold kSoft softmaxRow
  refine congrArg₂ Ideal.div (kExp_apply A hr hφ hmax hs hb g n m) ?_
  refine (keepdims_apply _ hs hb g n m).trans ?_
  refine (rowsum_apply _ hr hφ hadd g n).trans ?_
  exact Finset.sum_congr rfl fun m' _ => kExp_apply A hr hφ hmax hs hb g n m'

end Softmax

/-- The attention output at row `n`, coordinate `d` of item `g`: the softmax of row `n` of the stored scores
    (`k0_pay6 …`) averaging the value rows (`v23`, on the 512 flattened rows). -/
theorem pay7_apply (v13 : FVec Ideal S512x256 .bf16) (v23 v33 : FVec Ideal S512x256 .f32) (v36 : Vec Ideal S256 .f32)
    (v37 : FVec Ideal S256x256 .bf16) (v51 : Vec Ideal S4x128x128 .f32) (g : Fin 4) (n : Fin 128) (d : Fin 256) :
    k0_pay7 (F := Ideal) v13 v23 v33 v36 v37 v51 (ix3 g n d)
      = attend (fun n' => softmaxRow (fun m => k0_pay6 (F := Ideal) v13 v33 v36 v37 v51 (ix3 g n' m)))
          (fun m d' => v23 (ix2 (row g m) d')) n d := by
  unfold k0_pay7
  refine (att_matmul_apply _ _ g n d).trans ?_
  unfold attend
  refine Finset.sum_congr rfl fun m _ => congrArg₂ (· * ·) ?_ ?_
  · exact kSoft_apply (k0_pay6 (F := Ideal) v13 v33 v36 v37 v51) _ _ _ _ _ _ g n m
  · exact unflat_apply v23 _ g m d

/-! ## The critic's head on the 512 flattened rows -/

/-- The attended rows with the action appended as coordinate 256, flattened to 512 rows: at row 128 g + n,
    coordinate i, the specification's row of item g. -/
theorem cat_flat_apply (v75 : FVec Ideal S4x128x256 .f32) (v76 : Vec Ideal S4x128x1 .f32)
    (hc : Shape.Concatenates [S4x128x256, S4x128x1] S4x128x257 2) (hs : S4x128x257.ShapeCasts S512x257)
    (g : Fin 4) (n : Fin 128) (i : Fin 257) :
    shapeCast S512x257 (concatenate S4x128x257 2 [⟨S4x128x256, v75⟩, ⟨S4x128x1, v76⟩] hc) hs (ix2 (row g n) i)
      = withAction (fun n' d => v75 (ix3 g n' d)) (fun n' => v76 (ix3 g n' 0)) n i := by
  refine (flat_apply _ hs g n i).trans ?_
  unfold withAction
  by_cases hi : i.val < 256
  · rw [dif_pos hi]
    refine concatenate_pair_apply_left 2 v75 v76 hc (ix3 g n i) rfl (ix3 g n ⟨i.val, hi⟩) fun b => ?_
    match b with
    | ⟨0, _⟩ => rfl
    | ⟨1, _⟩ => rfl
    | ⟨2, _⟩ => rfl
  · rw [dif_neg hi]
    refine concatenate_pair_apply_right 2 v75 v76 hc (ix3 g n i) rfl rfl (ix3 g n 0) (fun b hb => ?_) ?_
    · match b with
      | ⟨0, _⟩ => rfl
      | ⟨1, _⟩ => rfl
      | ⟨2, _⟩ => exact absurd rfl hb
    · show 0 + 256 = i.val
      have := i.isLt
      omega

section Layer

variable {K N : ℕ} (d : DotDims ⟨2, ![512, K]⟩ ⟨2, ![K, N]⟩ ⟨2, ![512, N]⟩)
  (X : FVec Ideal ⟨2, ![512, K]⟩ .f32) (W : Vec Ideal ⟨2, ![N, K]⟩ .f32) (b : Vec Ideal ⟨1, ![N]⟩ .f32)
  (hlt : FTy.bits .bf16 < FTy.bits .f32) (ht : (⟨2, ![N, K]⟩ : Shape).Transposes [1, 0] ⟨2, ![K, N]⟩)
  (hs : (⟨1, ![N]⟩ : Shape).ShapeCasts ⟨2, ![1, N]⟩) (hb : (⟨2, ![1, N]⟩ : Shape).Broadcasts ⟨2, ![512, N]⟩)

/-- One rectified affine layer on the 512 rows as the body writes it: the rows times the transposed weights from
    zero, the bias row added to every row, the maximum with zero. -/
def kLayer : FVec Ideal ⟨2, ![512, N]⟩ .f32 :=
  maximumf
    (addf
      (matmul d none (truncf .bf16 X hlt) (transpose ⟨2, ![K, N]⟩ [1, 0] (truncf .bf16 W hlt) ht)
        (constant ⟨2, ![512, N]⟩ .f32 0x00000000#32))
      (broadcastTo ⟨2, ![512, N]⟩ (shapeCast ⟨2, ![1, N]⟩ b hs) hb))
    (broadcast ⟨2, ![512, N]⟩ (Scalar.ofBits .f32 0x00000000#32))

/-- If the layer's input at row 128 g + n is the row `a n`, for every n, then its output at row 128 g + n is the
    specification's layer of `a` at n. -/
theorem kLayer_apply (hd : d = DotDims.plain 512 K N) (a : Fin 128 → Fin K → EReal) (g : Fin 4)
    (hX : ∀ n k, X (ix2 (row g n) k) = a n k) (n : Fin 128) (j : Fin N) :
    kLayer d X W b hlt ht hs hb (ix2 (row g n) j) = layer a (mat W) (vec b) n j := by
  subst hd
  unfold kLayer layer relu lin
  refine (maximumf_apply _ _ _).trans (congrArg₂ max ?_ rfl)
  refine (addf_apply _ _ _).trans (congrArg₂ (· + ·) ?_ ?_)
  · refine (plain_matmul_apply _ _ (row g n) j).trans ?_
    refine Finset.sum_congr rfl fun k _ => congrArg₂ (· * ·) (hX n k) ?_
    exact transpose_ix2_apply _ ht k j
  · refine (broadcastTo_1b_ab_apply _ hb (row g n) j).trans ?_
    exact shapeCast_a_1a_apply b hs 0 j

end Layer

/-- The stored value at agent `n` of item `g`: the critic's head on the rows `v75` with the action `v76` appended. -/
theorem tail_apply (v75 : FVec Ideal S4x128x256 .f32) (v76 : Vec Ideal S4x128x1 .f32) (v80 : Vec Ideal S256x257 .f32)
    (v82 : Vec Ideal S256 .f32) (v91 : Vec Ideal S256x256 .f32) (v93 : Vec Ideal S256 .f32)
    (v102 : Vec Ideal S256x256 .f32) (v104 : Vec Ideal S256 .f32) (v113 : Vec Ideal S1x256 .f32) (v115 : Vec Ideal S1 .f32)
    (g : Fin 4) (n : Fin 128) :
    k0_pay1 (F := Ideal) v115 (k0_pay8 v75 v76 v80 v82 v91 v93 v102 v104 v113) (ix3 g n 0)
      = critic (withAction (fun n' d => v75 (ix3 g n' d)) (fun n' => v76 (ix3 g n' 0)))
          (mat v80) (vec v82) (mat v91) (vec v93) (mat v102) (vec v104) (mat v113 0) (v115 (ix1 0)) n := by
  unfold k0_pay1 k0_pay8
  refine (unflat_apply _ _ g n 0).trans ?_
  unfold critic lin
  refine (addf_apply _ _ _).trans (congrArg₂ (· + ·) ?_ ?_)
  · refine (plain_matmul_apply _ _ (row g n) 0).trans ?_
    refine Finset.sum_congr rfl fun k _ => congrArg₂ (· * ·) ?_ ?_
    · refine (truncf_apply (ψ := .bf16) (φ := .f32) _ _ _).trans ?_
      refine kLayer_apply _ _ _ _ _ _ _ _ dot2_eq _ g (fun n' k' => ?_) n k
      refine kLayer_apply _ _ _ _ _ _ _ _ dot2_eq _ g (fun n'' k'' => ?_) n' k'
      refine kLayer_apply _ _ _ _ _ _ _ _ dot1_eq _ g (fun n''' i => ?_) n'' k''
      exact cat_flat_apply v75 v76 _ _ g n''' i
    · exact transpose_ix2_apply _ _ k 0
  · refine (broadcastTo_1b_ab_apply _ _ (row g n) 0).trans ?_
    exact shapeCast_a_1a_apply v115 _ 0 0

end Cert.KernelCritic

end
-- ==== Proof.KernelValue.lean ====
/-
  What the kernel body stores to the value window, over the blocks of all nineteen arguments, is the
  specification's value of the block's four items: the critic's head (the body's last stretch) over the attention
  output (its middle stretch) over the stored scores and the value layer (its first stretch).
-/
import proofs.«107999_j56143812493412_1_alg».proof.Proof.KernelScores
import proofs.«107999_j56143812493412_1_alg».proof.Proof.KernelCritic

noncomputable section

namespace Cert.KernelValue

open Idealize.ShloMosaic Idealize.ShloMosaic.ValueIdx Cert.KernelIdeal Cert.KernelIdeal.Gen Cert.Spec

variable [Cert.KernelIdeal.Facts]

/-- The body's value store, as a function of the blocks x0 … x18 of the arguments in their order, is `Gval` of a
    stack of four items. -/
theorem ker_val (x0 : Vec Ideal S4x128x64 .f32) (x1 : Vec Ideal S4x128x128 .f32) (x2 : Vec Ideal S4x128x1 .f32)
    (x3 : Vec Ideal S256x64 .f32) (x4 : Vec Ideal S256 .f32) (x5 : Vec Ideal S256x256 .f32) (x6 : Vec Ideal S256 .f32)
    (x7 : Vec Ideal S256x256 .f32) (x8 : Vec Ideal S256 .f32) (x9 : Vec Ideal S256x256 .f32) (x10 : Vec Ideal S256 .f32)
    (x11 : Vec Ideal S256x257 .f32) (x12 : Vec Ideal S256 .f32) (x13 : Vec Ideal S256x256 .f32) (x14 : Vec Ideal S256 .f32)
    (x15 : Vec Ideal S256x256 .f32) (x16 : Vec Ideal S256 .f32) (x17 : Vec Ideal S1x256 .f32) (x18 : Vec Ideal S1 .f32) :
    k0_pay1 (F := Ideal) x18 (k0_pay8 (k0_pay7 (k0_pay2 x0 x3 x4) (k0_pay3 x0 x3 x4 x5 x6) (k0_pay4 x0 x3 x4 x9 x10) x8
        (k0_pay5 x7) x1) x2 x11 x12 x13 x14 x15 x16 x17)
      = Gval (B := 4) x0 x1 x2 x3 x4 x5 x6 x7 x8 x9 x10 x11 x12 x13 x14 x15 x16 x17 x18 := by
  funext y
  obtain ⟨g, n, u, rfl⟩ : ∃ (g : Fin 4) (n : Fin 128) (u : Fin 1), y = ix3 g n u := ⟨y 0, y 1, y 2, eq_ix3 y⟩
  obtain rfl : u = 0 := Subsingleton.elim _ _
  refine (Cert.KernelCritic.tail_apply _ x2 x11 x12 x13 x14 x15 x16 x17 x18 g n).trans ?_
  -- the attended rows the head is applied to are the specification's
  have hrows : (fun (n' : Fin 128) (d : Fin 256) =>
        k0_pay7 (F := Ideal) (k0_pay2 x0 x3 x4) (k0_pay3 x0 x3 x4 x5 x6) (k0_pay4 x0 x3 x4 x9 x10) x8 (k0_pay5 x7) x1 (ix3 g n' d))
      = attend (fun n' => softmaxRow (fun m => Gaw (B := 4) x0 x1 x3 x4 x7 x8 x9 x10 (ix3 g n' m)))
          (layer (enc (B := 4) x0 x3 x4 g) (mat x5) (vec x6)) := by
    funext n' d
    refine (Cert.KernelCritic.pay7_apply _ _ _ x8 _ x1 g n' d).trans ?_
    rw [Cert.KernelScores.ker_aw x0 x1 x3 x4 x7 x8 x9 x10]
    exact congrArg (fun v => attend (fun n' => softmaxRow (fun m => Gaw (B := 4) x0 x1 x3 x4 x7 x8 x9 x10 (ix3 g n' m))) v n' d)
      (funext fun m => funext fun d' => Cert.KernelScores.pay3_apply x0 x3 x4 x5 x6 g m d')
  rw [hrows]
  rfl

end Cert.KernelValue

end
-- ==== Proof.SpecLocal.lean ====
/-
  Locality of the specification: both results at an index depend on the stack only through the item the index
  names, so a stack of 4 items that holds, item by item, four consecutive items of a stack of 1024 gives the same
  entries there; and on the weights only through their entries.
-/
import proofs.«107999_j56143812493412_1_alg».proof.Proof.Spec

noncomputable section

namespace Cert.Spec

open Idealize.ShloMosaic Idealize.ShloMosaic.ValueIdx

variable {B B' : ℕ}

/-- The masked scores at `y` of one stack and at `i` of another agree when the two indices name equal items (of x and
    of the mask) and the same agent pair, over equal weights. -/
theorem Gaw_congr
    {x : (⟨3, ![B, 128, 64]⟩ : Shape).Idx → EReal} {x' : (⟨3, ![B', 128, 64]⟩ : Shape).Idx → EReal}
    {mask : (⟨3, ![B, 128, 128]⟩ : Shape).Idx → EReal} {mask' : (⟨3, ![B', 128, 128]⟩ : Shape).Idx → EReal}
    {We We' : (⟨2, ![256, 64]⟩ : Shape).Idx → EReal} {be be' : (⟨1, ![256]⟩ : Shape).Idx → EReal}
    {Wk Wk' : (⟨2, ![256, 256]⟩ : Shape).Idx → EReal} {bk bk' : (⟨1, ![256]⟩ : Shape).Idx → EReal}
    {Wq Wq' : (⟨2, ![256, 256]⟩ : Shape).Idx → EReal} {bq bq' : (⟨1, ![256]⟩ : Shape).Idx → EReal}
    (g : Fin B) (g' : Fin B') (n m : Fin 128)
    (hx : item x g = item x' g') (hm : item mask g = item mask' g')
    (hWe : We = We') (hbe : be = be') (hWk : Wk = Wk') (hbk : bk = bk') (hWq : Wq = Wq') (hbq : bq = bq') :
    Gaw x mask We be Wk bk Wq bq (ix3 g n m) = Gaw x' mask' We' be' Wk' bk' Wq' bq' (ix3 g' n m) := by
  subst hWe hbe hWk hbk hWq hbq
  show masked (scores (layer (layer (item x g) (mat We) (vec be)) (mat Wq) (vec bq))
      (layer (layer (item x g) (mat We) (vec be)) (mat Wk) (vec bk))) (item mask g) n m
    = masked (scores (layer (layer (item x' g') (mat We) (vec be)) (mat Wq) (vec bq))
      (layer (layer (item x' g') (mat We) (vec be)) (mat Wk) (vec bk))) (item mask' g') n m
  rw [hx, hm]

/-- The values at `(g, n)` of one stack and at `(g', n)` of another agree when the two items (of x, of the mask and of
    the action) are equal, over equal weights. -/
theorem Gval_congr
    {x : (⟨3, ![B, 128, 64]⟩ : Shape).Idx → EReal} {x' : (⟨3, ![B', 128, 64]⟩ : Shape).Idx → EReal}
    {mask : (⟨3, ![B, 128, 128]⟩ : Shape).Idx → EReal} {mask' : (⟨3, ![B', 128, 128]⟩ : Shape).Idx → EReal}
    {action : (⟨3, ![B, 128, 1]⟩ : Shape).Idx → EReal} {action' : (⟨3, ![B', 128, 1]⟩ : Shape).Idx → EReal}
    {We We' : (⟨2, ![256, 64]⟩ : Shape).Idx → EReal} {be be' : (⟨1, ![256]⟩ : Shape).Idx → EReal}
    {Wv Wv' : (⟨2, ![256, 256]⟩ : Shape).Idx → EReal} {bv bv' : (⟨1, ![256]⟩ : Shape).Idx → EReal}
    {Wk Wk' : (⟨2, ![256, 256]⟩ : Shape).Idx → EReal} {bk bk' : (⟨1, ![256]⟩ : Shape).Idx → EReal}
    {Wq Wq' : (⟨2, ![256, 256]⟩ : Shape).Idx → EReal} {bq bq' : (⟨1, ![256]⟩ : Shape).Idx → EReal}
    {W1 W1' : (⟨2, ![256, 257]⟩ : Shape).Idx → EReal} {b1 b1' : (⟨1, ![256]⟩ : Shape).Idx → EReal}
    {W2 W2' : (⟨2, ![256, 256]⟩ : Shape).Idx → EReal} {b2 b2' : (⟨1, ![256]⟩ : Shape).Idx → EReal}
    {W3 W3' : (⟨2, ![256, 256]⟩ : Shape).Idx → EReal} {b3 b3' : (⟨1, ![256]⟩ : Shape).Idx → EReal}
    {W4 W4' : (⟨2, ![1, 256]⟩ : Shape).Idx → EReal} {b4 b4' : (⟨1, ![1]⟩ : Shape).Idx → EReal}
    (g : Fin B) (g' : Fin B') (n : Fin 128) (u : Fin 1)
    (hx : item x g = item x' g') (hm : item mask g = item mask' g') (ha : item action g = item action' g')
    (hWe : We = We') (hbe : be = be') (hWv : Wv = Wv') (hbv : bv = bv') (hWk : Wk = Wk') (hbk : bk = bk')
    (hWq : Wq = Wq') (hbq : bq = bq') (hW1 : W1 = W1') (hb1 : b1 = b1') (hW2 : W2 = W2') (hb2 : b2 = b2')
    (hW3 : W3 = W3') (hb3 : b3 = b3') (hW4 : W4 = W4') (hb4 : b4 = b4') :
    Gval x mask action We be Wv bv Wk bk Wq bq W1 b1 W2 b2 W3 b3 W4 b4 (ix3 g n u)
      = Gval x' mask' action' We' be' Wv' bv' Wk' bk' Wq' bq' W1' b1' W2' b2' W3' b3' W4' b4' (ix3 g' n u) := by
  subst hWe hbe hWv hbv hWk hbk hWq hbq hW1 hb1 hW2 hb2 hW3 hb3 hW4 hb4
  have hs : (fun n' : Fin 128 => softmaxRow (fun m => Gaw x mask We be Wk bk Wq bq (ix3 g n' m)))
      = (fun n' : Fin 128 => softmaxRow (fun m => Gaw x' mask' We be Wk bk Wq bq (ix3 g' n' m))) :=
    funext fun n' => congrArg softmaxRow (funext fun m => Gaw_congr g g' n' m hx hm rfl rfl rfl rfl rfl rfl)
  have hact : (fun n' : Fin 128 => action (ix3 g n' 0)) = (fun n' : Fin 128 => action' (ix3 g' n' 0)) :=
    funext fun n' => congrFun (congrFun ha n') 0
  show critic (withAction (attend (fun n' => softmaxRow (fun m => Gaw x mask We be Wk bk Wq bq (ix3 g n' m)))
        (layer (layer (item x g) (mat We) (vec be)) (mat Wv) (vec bv))) (fun n' => action (ix3 g n' 0)))
      (mat W1) (vec b1) (mat W2) (vec b2) (mat W3) (vec b3) (mat W4 0) (b4 (ix1 0)) n
    = critic (withAction (attend (fun n' => softmaxRow (fun m => Gaw x' mask' We be Wk bk Wq bq (ix3 g' n' m)))
        (layer (layer (item x' g') (mat We) (vec be)) (mat Wv) (vec bv))) (fun n' => action' (ix3 g' n' 0)))
      (mat W1) (vec b1) (mat W2) (vec b2) (mat W3) (vec b3) (mat W4 0) (b4 (ix1 0)) n
  rw [hs, hact, hx]

end Cert.Spec

end
-- ==== Proof.Blocks.lean ====
/-
  From the blocks to the arrays. The kernel's grid has 256 points; point `t` stages items `4 t … 4 t + 3` of x, of
  the mask and of the action, and the sixteen weight arrays whole, and writes back four items of each result. What
  it writes back is the specification's array over four items (the body's payloads read entry by entry), which is
  the four items `4 t + g` of the specification's array over all 1024 (locality); the 256 blocks of four items
  cover each result array, so after the run each result array IS the specification's.
-/
import proofs.«107999_j56143812493412_1_alg».proof.Proof.KernelBlocksGen
import proofs.«107999_j56143812493412_1_alg».proof.Proof.KernelValue
import proofs.«107999_j56143812493412_1_alg».proof.Proof.SpecLocal

set_option maxRecDepth 16384

noncomputable section

namespace Cert.KernelBlocks

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The item of the 1024 that item `g` of point `t`'s block is. -/
def stackIdx (t : Fin cfg0.N) (g : Fin 4) : Fin 1024 :=
  ⟨t.val * 4 + g.val, by have ht : t.val < 256 := t.isLt; have := g.isLt; omega⟩

/-- The index maps of the five windows that move with the grid, decided over the 256 points: block `t` on the item
    axis, block 0 on the other two. -/
theorem idx_batch : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_19.index t (0 : Fin 3) = t.val ∧ win0_19.index t (1 : Fin 3) = 0 ∧ win0_19.index t (2 : Fin 3) = 0
    ∧ win0_20.index t (0 : Fin 3) = t.val ∧ win0_20.index t (1 : Fin 3) = 0 ∧ win0_20.index t (2 : Fin 3) = 0 :=
  (by decide +kernel : ∀ t : Fin grid0.N, _)

/-- The index maps of the sixteen weight windows, decided over the 256 points: block 0 on every axis. -/
theorem idx_weights : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = 0 ∧ win0_15.index t (1 : Fin 2) = 0
    ∧ win0_16.index t (0 : Fin 1) = 0
    ∧ win0_17.index t (0 : Fin 2) = 0 ∧ win0_17.index t (1 : Fin 2) = 0
    ∧ win0_18.index t (0 : Fin 1) = 0 :=
  (by decide +kernel : ∀ t : Fin grid0.N, _)

/-! ## What a point stages -/

/-- Window 3 holds its whole array at every point. -/
theorem wblk3 (c : Dev nD) (t : Fin cfg0.N) : (iblk m c 3 t : S256x64.Idx → EReal) = V m c main_arg3 := by
  funext y
  show V m c main_arg3 (((cfg0.win 3).blk t).view.emb y) = V m c main_arg3 y
  refine congrArg (V m c main_arg3) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_3.index t (0 : Fin 2) * 256 + 1 * (y 0).val = (y 0).val; omega
  | ⟨1, _⟩ => show win0_3.index t (1 : Fin 2) * 64 + 1 * (y 1).val = (y 1).val; omega

/-- Window 4 holds its whole array at every point. -/
theorem wblk4 (c : Dev nD) (t : Fin cfg0.N) : (iblk m c 4 t : S256.Idx → EReal) = V m c main_arg4 := by
  funext y
  show V m c main_arg4 (((cfg0.win 4).blk t).view.emb y) = V m c main_arg4 y
  refine congrArg (V m c main_arg4) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_4.index t (0 : Fin 1) * 256 + 1 * (y 0).val = (y 0).val; omega

/-- Window 5 holds its whole array at every point. -/
theorem wblk5 (c : Dev nD) (t : Fin cfg0.N) : (iblk m c 5 t : S256x256.Idx → EReal) = V m c main_arg5 := by
  funext y
  show V m c main_arg5 (((cfg0.win 5).blk t).view.emb y) = V m c main_arg5 y
  refine congrArg (V m c main_arg5) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- Window 6 holds its whole array at every point. -/
theorem wblk6 (c : Dev nD) (t : Fin cfg0.N) : (iblk m c 6 t : S256.Idx → EReal) = V m c main_arg6 := by
  funext y
  show V m c main_arg6 (((cfg0.win 6).blk t).view.emb y) = V m c main_arg6 y
  refine congrArg (V m c main_arg6) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_6.index t (0 : Fin 1) * 256 + 1 * (y 0).val = (y 0).val; omega

/-- Window 7 holds its whole array at every point. -/
theorem wblk7 (c : Dev nD) (t : Fin cfg0.N) : (iblk m c 7 t : S256x256.Idx → EReal) = V m c main_arg7 := by
  funext y
  show V m c main_arg7 (((cfg0.win 7).blk t).view.emb y) = V m c main_arg7 y
  refine congrArg (V m c main_arg7) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_7.index t (0 : Fin 2) * 256 + 1 * (y 0).val = (y 0).val; omega
  | ⟨1, _⟩ => show win0_7.index t (1 : Fin 2) * 256 + 1 * (y 1).val = (y 1).val; omega

/-- Window 8 holds its whole array at every point. -/
theorem wblk8 (c : Dev nD) (t : Fin cfg0.N) : (iblk m c 8 t : S256.Idx → EReal) = V m c main_arg8 := by
  funext y
  show V m c main_arg8 (((cfg0.win 8).blk t).view.emb y) = V m c main_arg8 y
  refine congrArg (V m c main_arg8) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_8.index t (0 : Fin 1) * 256 + 1 * (y 0).val = (y 0).val; omega

/-- Window 9 holds its whole array at every point. -/
theorem wblk9 (c : Dev nD) (t : Fin cfg0.N) : (iblk m c 9 t : S256x256.Idx → EReal) = V m c main_arg9 := by
  funext y
  show V m c main_arg9 (((cfg0.win 9).blk t).view.emb y) = V m c main_arg9 y
  refine congrArg (V m c main_arg9) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_9.index t (0 : Fin 2) * 256 + 1 * (y 0).val = (y 0).val; omega
  | ⟨1, _⟩ => show win0_9.index t (1 : Fin 2) * 256 + 1 * (y 1).val = (y 1).val; omega

/-- Window 10 holds its whole array at every point. -/
theorem wblk10 (c : Dev nD) (t : Fin cfg0.N) : (iblk m c 10 t : S256.Idx → EReal) = V m c main_arg10 := by
  funext y
  show V m c main_arg10 (((cfg0.win 10).blk t).view.emb y) = V m c main_arg10 y
  refine congrArg (V m c main_arg10) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_10.index t (0 : Fin 1) * 256 + 1 * (y 0).val = (y 0).val; omega

/-- Window 11 holds its whole array at every point. -/
theorem wblk11 (c : Dev nD) (t : Fin cfg0.N) : (iblk m c 11 t : S256x257.Idx → EReal) = V m c main_arg11 := by
  funext y
  show V m c main_arg11 (((cfg0.win 11).blk t).view.emb y) = V m c main_arg11 y
  refine congrArg (V m c main_arg11) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_11.index t (0 : Fin 2) * 256 + 1 * (y 0).val = (y 0).val; omega
  | ⟨1, _⟩ => show win0_11.index t (1 : Fin 2) * 257 + 1 * (y 1).val = (y 1).val; omega

/-- Window 12 holds its whole array at every point. -/
theorem wblk12 (c : Dev nD) (t : Fin cfg0.N) : (iblk m c 12 t : S256.Idx → EReal) = V m c main_arg12 := by
  funext y
  show V m c main_arg12 (((cfg0.win 12).blk t).view.emb y) = V m c main_arg12 y
  refine congrArg (V m c main_arg12) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_12.index t (0 : Fin 1) * 256 + 1 * (y 0).val = (y 0).val; omega

/-- Window 13 holds its whole array at every point. -/
theorem wblk13 (c : Dev nD) (t : Fin cfg0.N) : (iblk m c 13 t : S256x256.Idx → EReal) = V m c main_arg13 := by
  funext y
  show V m c main_arg13 (((cfg0.win 13).blk t).view.emb y) = V m c main_arg13 y
  refine congrArg (V m c main_arg13) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_13.index t (0 : Fin 2) * 256 + 1 * (y 0).val = (y 0).val; omega
  | ⟨1, _⟩ => show win0_13.index t (1 : Fin 2) * 256 + 1 * (y 1).val = (y 1).val; omega

/-- Window 14 holds its whole array at every point. -/
theorem wblk14 (c : Dev nD) (t : Fin cfg0.N) : (iblk m c 14 t : S256.Idx → EReal) = V m c main_arg14 := by
  funext y
  show V m c main_arg14 (((cfg0.win 14).blk t).view.emb y) = V m c main_arg14 y
  refine congrArg (V m c main_arg14) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_14.index t (0 : Fin 1) * 256 + 1 * (y 0).val = (y 0).val; omega

/-- Window 15 holds its whole array at every point. -/
theorem wblk15 (c : Dev nD) (t : Fin cfg0.N) : (iblk m c 15 t : S256x256.Idx → EReal) = V m c main_arg15 := by
  funext y
  show V m c main_arg15 (((cfg0.win 15).blk t).view.emb y) = V m c main_arg15 y
  refine congrArg (V m c main_arg15) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_15.index t (0 : Fin 2) * 256 + 1 * (y 0).val = (y 0).val; omega
  | ⟨1, _⟩ => show win0_15.index t (1 : Fin 2) * 256 + 1 * (y 1).val = (y 1).val; omega

/-- Window 16 holds its whole array at every point. -/
theorem wblk16 (c : Dev nD) (t : Fin cfg0.N) : (iblk m c 16 t : S256.Idx → EReal) = V m c main_arg16 := by
  funext y
  show V m c main_arg16 (((cfg0.win 16).blk t).view.emb y) = V m c main_arg16 y
  refine congrArg (V m c main_arg16) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_16.index t (0 : Fin 1) * 256 + 1 * (y 0).val = (y 0).val; omega

/-- Window 17 holds its whole array at every point. -/
theorem wblk17 (c : Dev nD) (t : Fin cfg0.N) : (iblk m c 17 t : S1x256.Idx → EReal) = V m c main_arg17 := by
  funext y
  show V m c main_arg17 (((cfg0.win 17).blk t).view.emb y) = V m c main_arg17 y
  refine congrArg (V m c main_arg17) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_17.index t (0 : Fin 2) * 1 + 1 * (y 0).val = (y 0).val; omega
  | ⟨1, _⟩ => show win0_17.index t (1 : Fin 2) * 256 + 1 * (y 1).val = (y 1).val; omega

/-- Window 18 holds its whole array at every point. -/
theorem wblk18 (c : Dev nD) (t : Fin cfg0.N) : (iblk m c 18 t : S1.Idx → EReal) = V m c main_arg18 := by
  funext y
  show V m c main_arg18 (((cfg0.win 18).blk t).view.emb y) = V m c main_arg18 y
  refine congrArg (V m c main_arg18) (funext fun a => Fin.ext ?_)
  obtain ⟨w3_0, w3_1, w4_0, w5_0, w5_1, w6_0, w7_0, w7_1, w8_0, w9_0, w9_1, w10_0, w11_0, w11_1, w12_0, w13_0, w13_1, w14_0, w15_0, w15_1, w16_0, w17_0, w17_1, w18_0⟩ := idx_weights t
  match a with
  | ⟨0, _⟩ => show win0_18.index t (0 : Fin 1) * 1 + 1 * (y 0).val = (y 0).val; omega

/-- Item `g` of window 0's block at point `t` is item `4 t + g` of its array. -/
theorem xblk (c : Dev nD) (t : Fin cfg0.N) (g : Fin 4) :
    item (B := 4) (iblk m c 0 t : S4x128x64.Idx → EReal) g = item (B := 1024) (V m c main_arg0) (stackIdx t g) := by
  funext n d
  show V m c main_arg0 (((cfg0.win 0).blk t).view.emb (ix3 g n d)) = V m c main_arg0 (ix3 (stackIdx t g) n d)
  refine congrArg (V m c main_arg0) (funext fun a => Fin.ext ?_)
  obtain ⟨b0_0, b0_1, b0_2, b1_0, b1_1, b1_2, b2_0, b2_1, b2_2, b19_0, b19_1, b19_2, b20_0, b20_1, b20_2⟩ := idx_batch t
  match a with
  | ⟨0, _⟩ => show win0_0.index t (0 : Fin 3) * 4 + 1 * g.val = t.val * 4 + g.val; omega
  | ⟨1, _⟩ => show win0_0.index t (1 : Fin 3) * 128 + 1 * n.val = n.val; omega
  | ⟨2, _⟩ => show win0_0.index t (2 : Fin 3) * 64 + 1 * d.val = d.val; omega

/-- Item `g` of window 1's block at point `t` is item `4 t + g` of its array. -/
theorem mblk (c : Dev nD) (t : Fin cfg0.N) (g : Fin 4) :
    item (B := 4) (iblk m c 1 t : S4x128x128.Idx → EReal) g = item (B := 1024) (V m c main_arg1) (stackIdx t g) := by
  funext n d
  show V m c main_arg1 (((cfg0.win 1).blk t).view.emb (ix3 g n d)) = V m c main_arg1 (ix3 (stackIdx t g) n d)
  refine congrArg (V m c main_arg1) (funext fun a => Fin.ext ?_)
  obtain ⟨b0_0, b0_1, b0_2, b1_0, b1_1, b1_2, b2_0, b2_1, b2_2, b19_0, b19_1, b19_2, b20_0, b20_1, b20_2⟩ := idx_batch t
  match a with
  | ⟨0, _⟩ => show win0_1.index t (0 : Fin 3) * 4 + 1 * g.val = t.val * 4 + g.val; omega
  | ⟨1, _⟩ => show win0_1.index t (1 : Fin 3) * 128 + 1 * n.val = n.val; omega
  | ⟨2, _⟩ => show win0_1.index t (2 : Fin 3) * 128 + 1 * d.val = d.val; omega

/-- Item `g` of window 2's block at point `t` is item `4 t + g` of its array. -/
theorem ablk (c : Dev nD) (t : Fin cfg0.N) (g : Fin 4) :
    item (B := 4) (iblk m c 2 t : S4x128x1.Idx → EReal) g = item (B := 1024) (V m c main_arg2) (stackIdx t g) := by
  funext n d
  show V m c main_arg2 (((cfg0.win 2).blk t).view.emb (ix3 g n d)) = V m c main_arg2 (ix3 (stackIdx t g) n d)
  refine congrArg (V m c main_arg2) (funext fun a => Fin.ext ?_)
  obtain ⟨b0_0, b0_1, b0_2, b1_0, b1_1, b1_2, b2_0, b2_1, b2_2, b19_0, b19_1, b19_2, b20_0, b20_1, b20_2⟩ := idx_batch t
  match a with
  | ⟨0, _⟩ => show win0_2.index t (0 : Fin 3) * 4 + 1 * g.val = t.val * 4 + g.val; omega
  | ⟨1, _⟩ => show win0_2.index t (1 : Fin 3) * 128 + 1 * n.val = n.val; omega
  | ⟨2, _⟩ => show win0_2.index t (2 : Fin 3) * 1 + 1 * d.val = d.val; omega

/-! ## What a point writes back -/

/-- The array index under block index `(g, n, k)` of output window 20 at point `t`. -/
theorem emb20 (t : Fin cfg0.N) (g : Fin 4) (n : Fin 128) (k : Fin 128) :
    ((cfg0.win 20).blk t).view.emb (ix3 g n k : S4x128x128.Idx) = ix3 (stackIdx t g) n k := by
  funext a; apply Fin.ext
  obtain ⟨b0_0, b0_1, b0_2, b1_0, b1_1, b1_2, b2_0, b2_1, b2_2, b19_0, b19_1, b19_2, b20_0, b20_1, b20_2⟩ := idx_batch t
  match a with
  | ⟨0, _⟩ => show win0_20.index t (0 : Fin 3) * 4 + 1 * g.val = t.val * 4 + g.val; omega
  | ⟨1, _⟩ => show win0_20.index t (1 : Fin 3) * 128 + 1 * n.val = n.val; omega
  | ⟨2, _⟩ => show win0_20.index t (2 : Fin 3) * 128 + 1 * k.val = k.val; omega

/-- The array index under block index `(g, n, k)` of output window 19 at point `t`. -/
theorem emb19 (t : Fin cfg0.N) (g : Fin 4) (n : Fin 128) (k : Fin 1) :
    ((cfg0.win 19).blk t).view.emb (ix3 g n k : S4x128x1.Idx) = ix3 (stackIdx t g) n k := by
  funext a; apply Fin.ext
  obtain ⟨b0_0, b0_1, b0_2, b1_0, b1_1, b1_2, b2_0, b2_1, b2_2, b19_0, b19_1, b19_2, b20_0, b20_1, b20_2⟩ := idx_batch t
  match a with
  | ⟨0, _⟩ => show win0_19.index t (0 : Fin 3) * 4 + 1 * g.val = t.val * 4 + g.val; omega
  | ⟨1, _⟩ => show win0_19.index t (1 : Fin 3) * 128 + 1 * n.val = n.val; omega
  | ⟨2, _⟩ => show win0_19.index t (2 : Fin 3) * 1 + 1 * k.val = k.val; omega

/-- What point `t` writes back to the scores' array is block `t` of the specification's scores of the arguments. -/
theorem flushed20_eq (c : Dev nD) (t : Fin cfg0.N) :
    (dats m 0 c).flushed 20 t = ((cfg0.win 20).blk t).view.read (Elt Ideal)
      (Gaw (B := 1024) (V m c main_arg0) (V m c main_arg1) (V m c main_arg3) (V m c main_arg4) (V m c main_arg7) (V m c main_arg8) (V m c main_arg9) (V m c main_arg10)) := by
  rw [Cert.KernelIdeal.ValueP.flushed20]
  unfold out0_20
  rw [View.canon_unit_zero hz3]
  simp only [View.ld_unit_zero (S := S4x128x64) hz3, View.ld_unit_zero (S := S4x128x128) hz3,
    View.ld_unit_zero (S := S256x64) hz2, View.ld_unit_zero (S := S256) hz1, View.ld_unit_zero (S := S256x256) hz2]
  rw [Cert.KernelScores.ker_aw]
  funext j
  obtain ⟨g, n, k, rfl⟩ : ∃ (g : Fin 4) (n : Fin 128) (k : Fin 128), j = ix3 g n k := ⟨j 0, j 1, j 2, eq_ix3 j⟩
  show Gaw (B := 4) (iblk m c 0 t) (iblk m c 1 t) (iblk m c 3 t) (iblk m c 4 t) (iblk m c 7 t) (iblk m c 8 t) (iblk m c 9 t) (iblk m c 10 t) (ix3 g n k)
    = Gaw (B := 1024) (V m c main_arg0) (V m c main_arg1) (V m c main_arg3) (V m c main_arg4) (V m c main_arg7) (V m c main_arg8) (V m c main_arg9) (V m c main_arg10) (((cfg0.win 20).blk t).view.emb (ix3 g n k))
  rw [emb20 t g n k]
  exact Gaw_congr g (stackIdx t g) n k (xblk m c t g) (mblk m c t g) (wblk3 m c t) (wblk4 m c t) (wblk7 m c t) (wblk8 m c t)
    (wblk9 m c t) (wblk10 m c t)

/-- What point `t` writes back to the values' array is block `t` of the specification's values of the arguments. -/
theorem flushed19_eq (c : Dev nD) (t : Fin cfg0.N) :
    (dats m 0 c).flushed 19 t = ((cfg0.win 19).blk t).view.read (Elt Ideal)
      (Gval (B := 1024) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18)) := by
  rw [Cert.KernelIdeal.ValueP.flushed19]
  unfold out0_19
  rw [View.canon_unit_zero hz3]
  simp only [View.ld_unit_zero (S := S4x128x64) hz3, View.ld_unit_zero (S := S4x128x128) hz3, View.ld_unit_zero (S := S4x128x1) hz3,
    View.ld_unit_zero (S := S256x64) hz2, View.ld_unit_zero (S := S256) hz1, View.ld_unit_zero (S := S256x256) hz2,
    View.ld_unit_zero (S := S256x257) hz2, View.ld_unit_zero (S := S1x256) hz2, View.ld_unit_zero (S := S1) hz1]
  rw [Cert.KernelValue.ker_val]
  funext j
  obtain ⟨g, n, u, rfl⟩ : ∃ (g : Fin 4) (n : Fin 128) (u : Fin 1), j = ix3 g n u := ⟨j 0, j 1, j 2, eq_ix3 j⟩
  show Gval (B := 4) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 g n u)
    = Gval (B := 1024) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (((cfg0.win 19).blk t).view.emb (ix3 g n u))
  rw [emb19 t g n u]
  exact Gval_congr g (stackIdx t g) n u (xblk m c t g) (mblk m c t g) (ablk m c t g)
    (wblk3 m c t) (wblk4 m c t) (wblk5 m c t) (wblk6 m c t) (wblk7 m c t) (wblk8 m c t) (wblk9 m c t) (wblk10 m c t) (wblk11 m c t) (wblk12 m c t) (wblk13 m c t) (wblk14 m c t) (wblk15 m c t) (wblk16 m c t) (wblk17 m c t) (wblk18 m c t)

/-! ## The blocks cover the arrays -/

/-- An index of the array is in point `t`'s block of window 20 iff each coordinate is in the block's range. -/
theorem mem_blk20 (t : Fin cfg0.N) (i : S1024x128x128.Idx) :
    i ∈ ((cfg0.win 20).blk t).view.set ↔ ∀ a : Fin 3, win0_20.index t a * S4x128x128.size a ≤ (i a).val ∧ (i a).val < win0_20.index t a * S4x128x128.size a + S4x128x128.size a := by
  show i ∈ ((View.whole main_v0_1).slice (win0_20.rect t)).set ↔ _
  rw [View.set_slice_whole, Rect.mem_set_unit]
  exact Iff.rfl

/-- Every index of window 20's array is in the block of the point its item falls to. -/
theorem cover20 (i : S1024x128x128.Idx) : ∃ t : Fin cfg0.N, (cfg0.win 20).flush t = true ∧ i ∈ ((cfg0.win 20).blk t).view.set := by
  have hi0 : (i 0).val < 1024 := (i 0).isLt
  have hi1 : (i 1).val < 128 := (i 1).isLt
  have hi2 : (i 2).val < 128 := (i 2).isLt
  refine ⟨⟨(i 0).val / 4, by show (i 0).val / 4 < 256; omega⟩, flush0_20 _, ?_⟩
  rw [mem_blk20]
  obtain ⟨b0_0, b0_1, b0_2, b1_0, b1_1, b1_2, b2_0, b2_1, b2_2, b19_0, b19_1, b19_2, b20_0, b20_1, b20_2⟩ := idx_batch ⟨(i 0).val / 4, by show (i 0).val / 4 < 256; omega⟩
  intro a
  match a with
  | ⟨0, _⟩ => show win0_20.index _ (0 : Fin 3) * 4 ≤ (i 0).val ∧ (i 0).val < win0_20.index _ (0 : Fin 3) * 4 + 4; rw [b20_0]; show (i 0).val / 4 * 4 ≤ (i 0).val ∧ (i 0).val < (i 0).val / 4 * 4 + 4; omega
  | ⟨1, _⟩ => show win0_20.index _ (1 : Fin 3) * 128 ≤ (i 1).val ∧ (i 1).val < win0_20.index _ (1 : Fin 3) * 128 + 128; rw [b20_1]; omega
  | ⟨2, _⟩ => show win0_20.index _ (2 : Fin 3) * 128 ≤ (i 2).val ∧ (i 2).val < win0_20.index _ (2 : Fin 3) * 128 + 128; rw [b20_2]; omega

/-- An index of the array is in point `t`'s block of window 19 iff each coordinate is in the block's range. -/
theorem mem_blk19 (t : Fin cfg0.N) (i : S1024x128x1.Idx) :
    i ∈ ((cfg0.win 19).blk t).view.set ↔ ∀ a : Fin 3, win0_19.index t a * S4x128x1.size a ≤ (i a).val ∧ (i a).val < win0_19.index t a * S4x128x1.size a + S4x128x1.size a := by
  show i ∈ ((View.whole main_v0_0).slice (win0_19.rect t)).set ↔ _
  rw [View.set_slice_whole, Rect.mem_set_unit]
  exact Iff.rfl

/-- Every index of window 19's array is in the block of the point its item falls to. -/
theorem cover19 (i : S1024x128x1.Idx) : ∃ t : Fin cfg0.N, (cfg0.win 19).flush t = true ∧ i ∈ ((cfg0.win 19).blk t).view.set := by
  have hi0 : (i 0).val < 1024 := (i 0).isLt
  have hi1 : (i 1).val < 128 := (i 1).isLt
  have hi2 : (i 2).val < 1 := (i 2).isLt
  refine ⟨⟨(i 0).val / 4, by show (i 0).val / 4 < 256; omega⟩, flush0_19 _, ?_⟩
  rw [mem_blk19]
  obtain ⟨b0_0, b0_1, b0_2, b1_0, b1_1, b1_2, b2_0, b2_1, b2_2, b19_0, b19_1, b19_2, b20_0, b20_1, b20_2⟩ := idx_batch ⟨(i 0).val / 4, by show (i 0).val / 4 < 256; omega⟩
  intro a
  match a with
  | ⟨0, _⟩ => show win0_19.index _ (0 : Fin 3) * 4 ≤ (i 0).val ∧ (i 0).val < win0_19.index _ (0 : Fin 3) * 4 + 4; rw [b19_0]; show (i 0).val / 4 * 4 ≤ (i 0).val ∧ (i 0).val < (i 0).val / 4 * 4 + 4; omega
  | ⟨1, _⟩ => show win0_19.index _ (1 : Fin 3) * 128 ≤ (i 1).val ∧ (i 1).val < win0_19.index _ (1 : Fin 3) * 128 + 128; rw [b19_1]; omega
  | ⟨2, _⟩ => show win0_19.index _ (2 : Fin 3) * 1 ≤ (i 2).val ∧ (i 2).val < win0_19.index _ (2 : Fin 3) * 1 + 1; rw [b19_2]; omega

/-! ## The arrays after the run -/

/-- After the run the scores' array is the specification's scores of the arguments as launched. -/
theorem final20 (c : Dev nD) : (dats m 0 c).arrAt 20 cfg0.N = Gaw (B := 1024) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) :=
  (dats m 0 c).arrAt_eq_of_cover 20 _ (fun t _ => flushed20_eq m c t) cover20

/-- After the run the values' array is the specification's values of the arguments as launched. -/
theorem final19 (c : Dev nD) : (dats m 0 c).arrAt 19 cfg0.N = Gval (B := 1024) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (dats m 0 c).arrAt_eq_of_cover 19 _ (fun t _ => flushed19_eq m c t) cover19

/-- The kernel's run at the extended reals: it terminates, each result array ends at the specification's array of the
    arguments, and the arguments end as launched. -/
theorem run : θ_run defs (onTc (τ := τ) (main (F := Ideal))) ⟨m, fun _ => 0, ρ⟩ fun r => ∀ c : Dev nD,
      r.2.mem ((c : Thread nD τ).loc main_v0_0) = Gval (B := 1024) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c : Thread nD τ).loc main_v0_1) = Gaw (B := 1024) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final19 m c), (h c).2.1.trans (final20 m c), (h c).2.2⟩)
    (Cert.KernelIdeal.ValueP.run_blocks m ρ)

end Cert.KernelBlocks

end
-- ==== Proof.RefScores.lean ====
/-
  The reference's first result at the extended reals, and the value layer it shares with the second: the host
  program's stages up to the masked scores, each read at an index, are the specification's arrays over 1024 items.
-/
import proofs.«107999_j56143812493412_1_alg».proof.Proof.RefRead
import proofs.«107999_j56143812493412_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.RefScores

open Idealize.ShloMosaic Idealize.ShloMosaic.ValueIdx Cert.ReferenceIdeal Cert.ReferenceIdeal.ReadP Cert.Spec

variable [Cert.ReferenceIdeal.Facts]

/-- The reference's encoder: at (item, agent, coordinate) it is the specification's encoded rows. -/
theorem ref_h1 (x0 : (⟨S1024x128x64, .f32⟩ : BufTy).Contents (Elt Ideal)) (x3 : (⟨S256x64, .f32⟩ : BufTy).Contents (Elt Ideal)) (x4 : (⟨S256, .f32⟩ : BufTy).Contents (Elt Ideal)) :
    val_main_v4 (F := Ideal) x0 x3 x4 = fun i => enc (B := 1024) x0 x3 x4 (i 0) (i 1) (i 2) := by
  funext i
  rw [val_main_v4_apply, val_main_v3_apply, val_main_v0_apply, val_main_v2_apply, val_main_v1_apply, val_main_call0_v0_apply, val_main_call0_cst_apply]
  unfold enc layer relu lin
  show max ((∑ k : Fin 64, x0 (lidx_main_v0 i k) * x3 (ridx_main_v0 i k)) + x4 (idx_main_v1 (idx_main_v2 i))) zero = _
  refine congrArg₂ max (congrArg₂ (· + ·) (Finset.sum_congr rfl fun k _ => congrArg₂ (· * ·) ?_ ?_) ?_) rfl
  · exact congrArg x0 (funext fun a => by match a with | ⟨0, _⟩ => rfl | ⟨1, _⟩ => rfl | ⟨2, _⟩ => rfl)
  · exact congrArg x3 (funext fun a => by match a with | ⟨0, _⟩ => rfl | ⟨1, _⟩ => rfl)
  · exact congrArg x4 (funext fun a => by match a with | ⟨0, _⟩ => rfl)

/-- The reference's value layer: at (item, agent, coordinate) it is the specification's layer over the encoded rows. -/
theorem ref_v (x0 : (⟨S1024x128x64, .f32⟩ : BufTy).Contents (Elt Ideal)) (x3 : (⟨S256x64, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v9 (F := Ideal) x0 x3 x4 x5 x6
      = fun i => layer (enc (B := 1024) x0 x3 x4 (i 0)) (mat x5) (vec x6) (i 1) (i 2) := by
  funext i
  rw [val_main_v9_apply, val_main_v8_apply, val_main_v5_apply, val_main_v7_apply, val_main_v6_apply, val_main_call1_v0_apply, val_main_call1_cst_apply, ref_h1]
  unfold layer relu lin
  show max ((∑ k : Fin 256, enc (B := 1024) x0 x3 x4 (lidx_main_v5 i k 0) (lidx_main_v5 i k 1) (lidx_main_v5 i k 2) * x5 (ridx_main_v5 i k)) + x6 (idx_main_v6 (idx_main_v7 i))) zero = _
  refine congrArg₂ max (congrArg₂ (· + ·) (Finset.sum_congr rfl fun k _ => congrArg₂ (· * ·) rfl ?_) ?_) rfl
  · exact congrArg x5 (funext fun a => by match a with | ⟨0, _⟩ => rfl | ⟨1, _⟩ => rfl)
  · exact congrArg x6 (funext fun a => by match a with | ⟨0, _⟩ => rfl)

/-- The reference's query layer: at (item, agent, coordinate) it is the specification's layer over the encoded rows. -/
theorem ref_q (x0 : (⟨S1024x128x64, .f32⟩ : BufTy).Contents (Elt Ideal)) (x3 : (⟨S256x64, .f32⟩ : BufTy).Contents (Elt Ideal)) (x4 : (⟨S256, .f32⟩ : BufTy).Contents (Elt Ideal)) (x9 : (⟨S256x256, .f32⟩ : BufTy).Contents (Elt Ideal)) (x10 : (⟨S256, .f32⟩ : BufTy).Contents (Elt Ideal)) :
    val_main_v14 (F := Ideal) x0 x3 x4 x9 x10
      = fun i => layer (enc (B := 1024) x0 x3 x4 (i 0)) (mat x9) (vec x10) (i 1) (i 2) := by
  funext i
  rw [val_main_v14_apply, val_main_v13_apply, val_main_v10_apply, val_main_v12_apply, val_main_v11_apply, val_main_call2_v0_apply, val_main_call2_cst_apply, ref_h1]
  unfold layer relu lin
  show max ((∑ k : Fin 256, enc (B := 1024) x0 x3 x4 (lidx_main_v10 i k 0) (lidx_main_v10 i k 1) (lidx_main_v10 i k 2) * x9 (ridx_main_v10 i k)) + x10 (idx_main_v11 (idx_main_v12 i))) zero = _
  refine congrArg₂ max (congrArg₂ (· + ·) (Finset.sum_congr rfl fun k _ => congrArg₂ (· * ·) rfl ?_) ?_) rfl
  · exact congrArg x9 (funext fun a => by match a with | ⟨0, _⟩ => rfl | ⟨1, _⟩ => rfl)
  · exact congrArg x10 (funext fun a => by match a with | ⟨0, _⟩ => rfl)

/-- The reference's key layer: at (item, agent, coordinate) it is the specification's layer over the encoded rows. -/
theorem ref_k (x0 : (⟨S1024x128x64, .f32⟩ : BufTy).Contents (Elt Ideal)) (x3 : (⟨S256x64, .f32⟩ : BufTy).Contents (Elt Ideal)) (x4 : (⟨S256, .f32⟩ : BufTy).Contents (Elt Ideal)) (x7 : (⟨S256x256, .f32⟩ : BufTy).Contents (Elt Ideal)) (x8 : (⟨S256, .f32⟩ : BufTy).Contents (Elt Ideal)) :
    val_main_v19 (F := Ideal) x0 x3 x4 x7 x8
      = fun i => layer (enc (B := 1024) x0 x3 x4 (i 0)) (mat x7) (vec x8) (i 1) (i 2) := by
  funext i
  rw [val_main_v19_apply, val_main_v18_apply, val_main_v15_apply, val_main_v17_apply, val_main_v16_apply, val_main_call3_v0_apply, val_main_call3_cst_apply, ref_h1]
  unfold layer relu lin
  show max ((∑ k : Fin 256, enc (B := 1024) x0 x3 x4 (lidx_main_v15 i k 0) (lidx_main_v15 i k 1) (lidx_main_v15 i k 2) * x7 (ridx_main_v15 i k)) + x8 (idx_main_v16 (idx_main_v17 i))) zero = _
  refine congrArg₂ max (congrArg₂ (· + ·) (Finset.sum_congr rfl fun k _ => congrArg₂ (· * ·) rfl ?_) ?_) rfl
  · exact congrArg x7 (funext fun a => by match a with | ⟨0, _⟩ => rfl | ⟨1, _⟩ => rfl)
  · exact congrArg x8 (funext fun a => by match a with | ⟨0, _⟩ => rfl)

/-- The reference's masked scores are the specification's. -/
theorem ref_aw (x0 : (⟨S1024x128x64, .f32⟩ : BufTy).Contents (Elt Ideal)) (x1 : (⟨S1024x128x128, .f32⟩ : BufTy).Contents (Elt Ideal))
    (x3 : (⟨S256x64, .f32⟩ : BufTy).Contents (Elt Ideal)) (x4 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal)) :
    val_main_v27 (F := Ideal) x0 x1 x3 x4 x7 x8 x9 x10 = Gaw (B := 1024) x0 x1 x3 x4 x7 x8 x9 x10 := by
  funext i
  obtain ⟨g, n, m, rfl⟩ : ∃ g n m, i = ix3 g n m := ⟨i 0, i 1, i 2, eq_ix3 i⟩
  rw [val_main_v27_apply, val_main_v22_apply, val_main_call4_v2_apply, val_main_v21_apply, val_main_v20_apply, val_main_v26_apply, val_main_v25_apply, val_main_v24_apply, val_main_v23_apply, val_main_call4_v4_apply, val_main_call4_v3_apply, val_main_cst_0_apply, val_main_call4_v1_apply, val_main_call4_v0_apply, val_main_cst_apply, val_main_cst_1_apply, val_main_cst_2_apply, ref_q, ref_k]
  unfold Gaw masked scores
  show min clampHi (max zero ((∑ k : Fin 256, layer (enc (B := 1024) x0 x3 x4 g) (mat x9) (vec x10) n k
      * layer (enc (B := 1024) x0 x3 x4 g) (mat x7) (vec x8) m k) * x1 (ix3 g n m))) - big * (one - x1 (ix3 g n m)) = _
  rfl

end Cert.RefScores

end
-- ==== Proof.RefCritic.lean ====
/-
  The reference's second result at the extended reals: from the masked scores and the value rows on — the softmax of
  each row, the attention product, the action appended, the critic's head — the host program's stages, each read at an
  index, are the specification's values over 1024 items.
-/
import proofs.«107999_j56143812493412_1_alg».proof.Proof.RefRead
import proofs.«107999_j56143812493412_1_alg».proof.Proof.RefScores
import proofs.«107999_j56143812493412_1_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.RefCritic

open Idealize.ShloMosaic Idealize.ShloMosaic.ValueIdx Cert.ReferenceIdeal Cert.ReferenceIdeal.Gen Cert.ReferenceIdeal.ReadP Cert.Spec

variable [Cert.ReferenceIdeal.Facts]

section Stages

variable (x0 : (⟨S1024x128x64, .f32⟩ : BufTy).Contents (Elt Ideal)) (x1 : (⟨S1024x128x128, .f32⟩ : BufTy).Contents (Elt Ideal)) (x2 : (⟨S1024x128x1, .f32⟩ : BufTy).Contents (Elt Ideal))
  (x3 : (⟨S256x64, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
  (x11 : (⟨S256x257, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal))
  (x15 : (⟨S256x256, .f32⟩ : BufTy).Contents (Elt Ideal)) (x16 : (⟨S256, .f32⟩ : BufTy).Contents (Elt Ideal)) (x17 : (⟨S1x256, .f32⟩ : BufTy).Contents (Elt Ideal)) (x18 : (⟨S1, .f32⟩ : BufTy).Contents (Elt Ideal))

/-- Row `n` of the masked scores of item `g`. -/
def srow (g : Fin 1024) (n : Fin 128) : Fin 128 → EReal :=
  fun m => Gaw (B := 1024) x0 x1 x3 x4 x7 x8 x9 x10 (ix3 g n m)

/-- The index over `(g, n)` with `k` put back on the reduced last axis is `(g, n, k)`. -/
theorem lift_last (h : S1024x128x128.Reduces [2] S1024x128) (g : Fin 1024) (n : Fin 128) (k : Fin 128) :
    h.lift (ix2 g n) k = ix3 g n k := by
  funext a
  apply Fin.ext
  match a with
  | ⟨0, _⟩ => rfl
  | ⟨1, _⟩ => rfl
  | ⟨2, _⟩ => rfl

/-- The reference's row maximum at `(g, n)` is the specification's maximum of row `n` of item `g`'s masked scores. -/
theorem ref_rowmax (g : Fin 1024) (n : Fin 128) :
    val_main_v30 (F := Ideal) x0 x1 x3 x4 x7 x8 x9 x10 (ix2 g n) = rowMax (srow x0 x1 x3 x4 x7 x8 x9 x10 g n) := by
  rw [val_main_v30_apply, val_main_v29_apply, val_main_cst_4_apply]
  unfold val_main_v28
  rw [Host.reduce_eq_fold_single FloatOps.maximumf _ _ reducesTo_S1024x128x128_S1024x128_d2 (by decide) h_S_]
  rw [RefScores.ref_aw]
  have hf : (Gaw (B := 1024) x0 x1 x3 x4 x7 x8 x9 x10 ∘ Shape.Reduces.lift (s := S1024x128x128) (a := 2) (t := S1024x128) (by decide) (ix2 g n))
      = srow x0 x1 x3 x4 x7 x8 x9 x10 g n :=
    funext fun k => congrArg (Gaw (B := 1024) x0 x1 x3 x4 x7 x8 x9 x10) (lift_last _ g n k)
  rw [hf]
  rfl

/-- The reference's shifted exponentials at `(g, n, m)` are the specification's of row `n` of item `g`. -/
theorem ref_exp (g : Fin 1024) (n : Fin 128) (m : Fin 128) :
    val_main_v34 (F := Ideal) x0 x1 x3 x4 x7 x8 x9 x10 (ix3 g n m) = expRow (srow x0 x1 x3 x4 x7 x8 x9 x10 g n) m := by
  rw [val_main_v34_apply, val_main_v33_apply, val_main_v32_apply, val_main_v31_apply]
  have e : idx_main_v31 (idx_main_v32 (ix3 g n m : S1024x128x128.Idx)) = ix2 g n := by
    funext a
    match a with
    | ⟨0, _⟩ => rfl
    | ⟨1, _⟩ => rfl
  rw [e, ref_rowmax, RefScores.ref_aw]
  rfl

/-- The reference's row sum at `(g, n)` is the sum of the specification's shifted exponentials of that row. -/
theorem ref_sum (g : Fin 1024) (n : Fin 128) :
    val_main_v35 (F := Ideal) x0 x1 x3 x4 x7 x8 x9 x10 (ix2 g n) = ∑ m : Fin 128, expRow (srow x0 x1 x3 x4 x7 x8 x9 x10 g n) m := by
  rw [val_main_v35_apply, val_main_cst_5_apply]
  show Ideal.ofBits .f32 0x00000000#32 + _ = _
  rw [Ideal.ofBits_zero_f32, zero_add]
  refine Finset.sum_congr rfl fun k _ => ?_
  have e : idx_main_v35 (ix2 g n : S1024x128.Idx) k = ix3 g n k := by
    funext a
    match a with
    | ⟨0, _⟩ => rfl
    | ⟨1, _⟩ => rfl
    | ⟨2, _⟩ => rfl
  rw [e]
  exact ref_exp x0 x1 x3 x4 x7 x8 x9 x10 g n k

/-- The reference's attention weights at `(g, n, m)` are the softmax of row `n` of item `g`'s masked scores. -/
theorem ref_soft (g : Fin 1024) (n : Fin 128) (m : Fin 128) :
    val_main_v38 (F := Ideal) x0 x1 x3 x4 x7 x8 x9 x10 (ix3 g n m) = softmaxRow (srow x0 x1 x3 x4 x7 x8 x9 x10 g n) m := by
  rw [val_main_v38_apply, val_main_v37_apply, val_main_v36_apply]
  have e : idx_main_v36 (idx_main_v37 (ix3 g n m : S1024x128x128.Idx)) = ix2 g n := by
    funext a
    match a with
    | ⟨0, _⟩ => rfl
    | ⟨1, _⟩ => rfl
  rw [e, ref_sum, ref_exp]
  rfl

/-- The attended rows of item `g`: the softmax weights of each row average the value rows. -/
def att (g : Fin 1024) : Fin 128 → Fin 256 → EReal :=
  attend (fun n => softmaxRow (srow x0 x1 x3 x4 x7 x8 x9 x10 g n)) (layer (enc (B := 1024) x0 x3 x4 g) (mat x5) (vec x6))

/-- The reference's attention product at `(g, n, d)` is the specification's attended row. -/
theorem ref_att (g : Fin 1024) (n : Fin 128) (d : Fin 256) :
    val_main_v39 (F := Ideal) x0 x1 x3 x4 x5 x6 x7 x8 x9 x10 (ix3 g n d) = att x0 x1 x3 x4 x5 x6 x7 x8 x9 x10 g n d := by
  rw [val_main_v39_apply, RefScores.ref_v]
  unfold att attend
  refine Finset.sum_congr rfl fun k _ => ?_
  have el : lidx_main_v39 (ix3 g n d : S1024x128x256.Idx) k = ix3 g n k := by
    funext a
    match a with
    | ⟨0, _⟩ => rfl
    | ⟨1, _⟩ => rfl
    | ⟨2, _⟩ => rfl
  have er : ridx_main_v39 (ix3 g n d : S1024x128x256.Idx) k = ix3 g k d := by
    funext a
    match a with
    | ⟨0, _⟩ => rfl
    | ⟨1, _⟩ => rfl
    | ⟨2, _⟩ => rfl
  rw [el, er, ref_soft]

/-- The critic's input rows of item `g`: the attended row with the agent's action as coordinate 256. -/
def cin (g : Fin 1024) : Fin 128 → Fin 257 → EReal :=
  withAction (att x0 x1 x3 x4 x5 x6 x7 x8 x9 x10 g) (fun n => x2 (ix3 g n 0))

/-- The reference's concatenation at `(g, n, c)` is the attended row below coordinate 256 and the action at it. -/
theorem ref_cat (g : Fin 1024) (n : Fin 128) (c : Fin 257) :
    val_main_v40 (F := Ideal) x0 x1 x2 x3 x4 x5 x6 x7 x8 x9 x10 (ix3 g n c) = cin x0 x1 x2 x3 x4 x5 x6 x7 x8 x9 x10 g n c := by
  unfold val_main_v40 cin withAction
  by_cases hc : c.val < 256
  · rw [dif_pos hc]
    refine (concatenate_pair_apply_left (2 : Fin S1024x128x257.rank) _ _ concatenates_S1024x128x256_S1024x128x1_S1024x128x257_d2
      (ix3 g n c : S1024x128x257.Idx) rfl (ix3 g n ⟨c.val, hc⟩ : S1024x128x256.Idx) (fun b => by
        match b with
        | ⟨0, _⟩ => rfl
        | ⟨1, _⟩ => rfl
        | ⟨2, _⟩ => rfl)).trans ?_
    exact ref_att x0 x1 x3 x4 x5 x6 x7 x8 x9 x10 g n ⟨c.val, hc⟩
  · rw [dif_neg hc]
    refine concatenate_pair_apply_right (2 : Fin S1024x128x257.rank) _ _ concatenates_S1024x128x256_S1024x128x1_S1024x128x257_d2
      (ix3 g n c : S1024x128x257.Idx) rfl rfl (ix3 g n (0 : Fin 1) : S1024x128x1.Idx) (fun b hb => by
        match b, hb with
        | ⟨0, _⟩, _ => rfl
        | ⟨1, _⟩, _ => rfl
        | ⟨2, _⟩, hb => exact absurd rfl hb) ?_
    show 0 + 256 = c.val
    have := c.isLt
    omega

/-- The reference's first critic layer at `(g, n, j)` is the specification's rectified affine layer of the input rows. -/
theorem ref_l1 (g : Fin 1024) (n : Fin 128) (j : Fin 256) :
    val_main_v45 (F := Ideal) x0 x1 x2 x3 x4 x5 x6 x7 x8 x9 x10 x11 x12 (ix3 g n j) = layer (cin x0 x1 x2 x3 x4 x5 x6 x7 x8 x9 x10 g) (mat x11) (vec x12) n j := by
  rw [val_main_v45_apply, val_main_call5_v0_apply, val_main_call5_cst_apply, val_main_v44_apply, val_main_v43_apply, val_main_v42_apply, val_main_v41_apply]
  have hs : (∑ k : Fin 257, val_main_v40 (F := Ideal) x0 x1 x2 x3 x4 x5 x6 x7 x8 x9 x10 (lidx_main_v41 (ix3 g n j : S1024x128x256.Idx) k) * x11 (ridx_main_v41 (ix3 g n j : S1024x128x256.Idx) k))
      = ∑ k : Fin 257, cin x0 x1 x2 x3 x4 x5 x6 x7 x8 x9 x10 g n k * x11 (ix2 j k) := by
    refine Finset.sum_congr rfl fun k _ => ?_
    have el : lidx_main_v41 (ix3 g n j : S1024x128x256.Idx) k = ix3 g n k := by
      funext a
      match a with
      | ⟨0, _⟩ => rfl
      | ⟨1, _⟩ => rfl
      | ⟨2, _⟩ => rfl
    have er : ridx_main_v41 (ix3 g n j : S1024x128x256.Idx) k = ix2 j k := by
      funext a
      match a with
      | ⟨0, _⟩ => rfl
      | ⟨1, _⟩ => rfl
    rw [el, er, ref_cat]
  have eb : idx_main_v42 (idx_main_v43 (ix3 g n j : S1024x128x256.Idx)) = ix1 j := by
    funext a
    match a with
    | ⟨0, _⟩ => rfl
  rw [hs, eb]
  rfl

/-- The reference's second critic layer at `(g, n, j)` is the specification's layer of the first. -/
theorem ref_l2 (g : Fin 1024) (n : Fin 128) (j : Fin 256) :
    val_main_v50 (F := Ideal) x0 x1 x2 x3 x4 x5 x6 x7 x8 x9 x10 x11 x12 x13 x14 (ix3 g n j) = layer (layer (cin x0 x1 x2 x3 x4 x5 x6 x7 x8 x9 x10 g) (mat x11) (vec x12)) (mat x13) (vec x14) n j := by
  rw [val_main_v50_apply, val_main_call6_v0_apply, val_main_call6_cst_apply, val_main_v49_apply, val_main_v48_apply, val_main_v47_apply, val_main_v46_apply]
  have hs : (∑ k : Fin 256, val_main_v45 (F := Ideal) x0 x1 x2 x3 x4 x5 x6 x7 x8 x9 x10 x11 x12 (lidx_main_v46 (ix3 g n j : S1024x128x256.Idx) k) * x13 (ridx_main_v46 (ix3 g n j : S1024x128x256.Idx) k))
      = ∑ k : Fin 256, (layer (cin x0 x1 x2 x3 x4 x5 x6 x7 x8 x9 x10 g) (mat x11) (vec x12)) n k * x13 (ix2 j k) := by
    refine Finset.sum_congr rfl fun k _ => ?_
    have el : lidx_main_v46 (ix3 g n j : S1024x128x256.Idx) k = ix3 g n k := by
      funext a
      match a with
      | ⟨0, _⟩ => rfl
      | ⟨1, _⟩ => rfl
      | ⟨2, _⟩ => rfl
    have er : ridx_main_v46 (ix3 g n j : S1024x128x256.Idx) k = ix2 j k := by
      funext a
      match a with
      | ⟨0, _⟩ => rfl
      | ⟨1, _⟩ => rfl
    rw [el, er, ref_l1]
  have eb : idx_main_v47 (idx_main_v48 (ix3 g n j : S1024x128x256.Idx)) = ix1 j := by
    funext a
    match a with
    | ⟨0, _⟩ => rfl
  rw [hs, eb]
  rfl

/-- The reference's third critic layer at `(g, n, j)` is the specification's layer of the second. -/
theorem ref_l3 (g : Fin 1024) (n : Fin 128) (j : Fin 256) :
    val_main_v55 (F := Ideal) x0 x1 x2 x3 x4 x5 x6 x7 x8 x9 x10 x11 x12 x13 x14 x15 x16 (ix3 g n j) = layer (layer (layer (cin x0 x1 x2 x3 x4 x5 x6 x7 x8 x9 x10 g) (mat x11) (vec x12)) (mat x13) (vec x14)) (mat x15) (vec x16) n j := by
  rw [val_main_v55_apply, val_main_call7_v0_apply, val_main_call7_cst_apply, val_main_v54_apply, val_main_v53_apply, val_main_v52_apply, val_main_v51_apply]
  have hs : (∑ k : Fin 256, val_main_v50 (F := Ideal) x0 x1 x2 x3 x4 x5 x6 x7 x8 x9 x10 x11 x12 x13 x14 (lidx_main_v51 (ix3 g n j : S1024x128x256.Idx) k) * x15 (ridx_main_v51 (ix3 g n j : S1024x128x256.Idx) k))
      = ∑ k : Fin 256, (layer (layer (cin x0 x1 x2 x3 x4 x5 x6 x7 x8 x9 x10 g) (mat x11) (vec x12)) (mat x13) (vec x14)) n k * x15 (ix2 j k) := by
    refine Finset.sum_congr rfl fun k _ => ?_
    have el : lidx_main_v51 (ix3 g n j : S1024x128x256.Idx) k = ix3 g n k := by
      funext a
      match a with
      | ⟨0, _⟩ => rfl
      | ⟨1, _⟩ => rfl
      | ⟨2, _⟩ => rfl
    have er : ridx_main_v51 (ix3 g n j : S1024x128x256.Idx) k = ix2 j k := by
      funext a
      match a with
      | ⟨0, _⟩ => rfl
      | ⟨1, _⟩ => rfl
    rw [el, er, ref_l2]
  have eb : idx_main_v52 (idx_main_v53 (ix3 g n j : S1024x128x256.Idx)) = ix1 j := by
    funext a
    match a with
    | ⟨0, _⟩ => rfl
  rw [hs, eb]
  rfl

end Stages

/-- The reference's values are the specification's. -/
theorem ref_val (x0 : (⟨S1024x128x64, .f32⟩ : BufTy).Contents (Elt Ideal)) (x1 : (⟨S1024x128x128, .f32⟩ : BufTy).Contents (Elt Ideal)) (x2 : (⟨S1024x128x1, .f32⟩ : BufTy).Contents (Elt Ideal))
    (x3 : (⟨S256x64, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
    (x11 : (⟨S256x257, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal))
    (x15 : (⟨S256x256, .f32⟩ : BufTy).Contents (Elt Ideal)) (x16 : (⟨S256, .f32⟩ : BufTy).Contents (Elt Ideal)) (x17 : (⟨S1x256, .f32⟩ : BufTy).Contents (Elt Ideal)) (x18 : (⟨S1, .f32⟩ : BufTy).Contents (Elt Ideal)) :
    val_main_v59 (F := Ideal) x0 x1 x2 x3 x4 x5 x6 x7 x8 x9 x10 x11 x12 x13 x14 x15 x16 x17 x18
      = Gval (B := 1024) x0 x1 x2 x3 x4 x5 x6 x7 x8 x9 x10 x11 x12 x13 x14 x15 x16 x17 x18 := by
  funext i
  obtain ⟨g, n, u, rfl⟩ : ∃ (g : Fin 1024) (n : Fin 128) (u : Fin 1), i = ix3 g n u := ⟨i 0, i 1, i 2, eq_ix3 i⟩
  obtain rfl : u = 0 := Subsingleton.elim _ _
  rw [val_main_v59_apply, val_main_v58_apply, val_main_v57_apply, val_main_v56_apply]
  have hs : (∑ k : Fin 256, val_main_v55 (F := Ideal) x0 x1 x2 x3 x4 x5 x6 x7 x8 x9 x10 x11 x12 x13 x14 x15 x16 (lidx_main_v56 (ix3 g n (0 : Fin 1) : S1024x128x1.Idx) k) * x17 (ridx_main_v56 (ix3 g n (0 : Fin 1) : S1024x128x1.Idx) k))
      = ∑ k : Fin 256, layer (layer (layer (cin x0 x1 x2 x3 x4 x5 x6 x7 x8 x9 x10 g) (mat x11) (vec x12)) (mat x13) (vec x14)) (mat x15) (vec x16) n k * x17 (ix2 (0 : Fin 1) k) := by
    refine Finset.sum_congr rfl fun k _ => ?_
    have el : lidx_main_v56 (ix3 g n (0 : Fin 1) : S1024x128x1.Idx) k = ix3 g n k := by
      funext a
      match a with
      | ⟨0, _⟩ => rfl
      | ⟨1, _⟩ => rfl
      | ⟨2, _⟩ => rfl
    have er : ridx_main_v56 (ix3 g n (0 : Fin 1) : S1024x128x1.Idx) k = ix2 (0 : Fin 1) k := by
      funext a
      match a with
      | ⟨0, _⟩ => rfl
      | ⟨1, _⟩ => rfl
    rw [el, er, ref_l3]
  have eb : idx_main_v57 (idx_main_v58 (ix3 g n (0 : Fin 1) : S1024x128x1.Idx)) = ix1 (0 : Fin 1) := by
    funext a
    match a with
    | ⟨0, _⟩ => rfl
  rw [hs, eb]
  rfl

end Cert.RefCritic

end
-- ==== Proof.lean ====
/-
  A masked graph self-attention feeding a critic, as one gridded kernel, against its whole-array reference, over the
  extended reals.

  Both programs compute, for each of 1024 items of 128 agents: an encoder and query, key and value layers (rectified
  affine maps), the scores `⟨q n, k m⟩` multiplied by the mask, clamped to `[0, hi]` and lowered by
  `big · (1 - mask)` (the first result), the softmax of each row of that array, the weighted average of the value
  rows, the action appended, and three rectified layers and one affine output (the second result). The kernel does
  this for four items per grid point on 512 flattened rows, through 16-bit copies of its operands (a change of format
  is the identity on the extended reals), with its weights transposed in place; the reference does it for all 1024
  items at once. Entry by entry both are the same finite sums, maxima, exponentials and quotients of the same entries
  of the arguments — `Gaw` and `Gval` of Proof/Spec.lean — so no law beyond the reordering of finite sums is used, and
  the finiteness of the inputs is never opened. The kernel's side: the body's payloads read entry by entry
  (Proof/KernelScores.lean, Proof/KernelCritic.lean, Proof/KernelValue.lean), the blocks of four items laid into the
  arrays (Proof/Blocks.lean). The reference's side: its stages read entry by entry (Proof/RefScores.lean,
  Proof/RefCritic.lean) over its run.
-/
import proofs.«107999_j56143812493412_1_alg».proof.Defs
import proofs.«107999_j56143812493412_1_alg».proof.Proof.Gen.Kernel
import proofs.«107999_j56143812493412_1_alg».proof.Proof.Gen.Kernel.Skeleton
import proofs.«107999_j56143812493412_1_alg».proof.Proof.Gen.Kernel.Launch
import proofs.«107999_j56143812493412_1_alg».proof.Proof.Gen.Kernel.Points
import proofs.«107999_j56143812493412_1_alg».proof.Proof.Gen.Kernel.Frame
import proofs.«107999_j56143812493412_1_alg».proof.Proof.Gen.KernelIdeal
import proofs.«107999_j56143812493412_1_alg».proof.Proof.Gen.KernelIdeal.Skeleton
import proofs.«107999_j56143812493412_1_alg».proof.Proof.Gen.KernelIdeal.Launch
import proofs.«107999_j56143812493412_1_alg».proof.Proof.Gen.KernelIdeal.Points
import proofs.«107999_j56143812493412_1_alg».proof.Proof.Gen.KernelIdeal.Frame
import proofs.«107999_j56143812493412_1_alg».proof.Proof.Gen.ReferenceIdeal
import proofs.«107999_j56143812493412_1_alg».proof.Proof.Gen.Pre_finite_inputs
import proofs.«107999_j56143812493412_1_alg».proof.Proof.Blocks
import proofs.«107999_j56143812493412_1_alg».proof.Proof.RefCritic
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories that agree on the nineteen arguments both programs end with the specification's two arrays of those
    arguments: the kernel's run block by block, the reference's stage by stage. -/
theorem algebraic : Cert.algebraic_KernelIdeal_ReferenceIdeal := by
  intro m ρ m' ρ' _ hagree
  refine ⟨_, _, Cert.KernelBlocks.run m ρ, ?_⟩
  refine (θ_run Cert.ReferenceIdeal.defs _ _).mono (fun _ h c => ⟨?_, ?_, (h c).2.2⟩)
    (Cert.ReferenceIdeal.ValueP.run (F := Ideal) m' ρ')
  · obtain ⟨e0, e1, e2, e3, e4, e5, e6, e7, e8, e9, e10, e11, e12, e13, e14, e15, e16, e17, e18⟩ := hagree c
    rw [(h c).1, Cert.ReferenceIdeal.ReadP.val_main_v59_eq, Cert.RefCritic.ref_val, e0, e1, e2, e3, e4, e5, e6, e7, e8, e9, e10, e11, e12, e13, e14, e15, e16, e17, e18]
  · obtain ⟨e0, e1, e2, e3, e4, e5, e6, e7, e8, e9, e10, e11, e12, e13, e14, e15, e16, e17, e18⟩ := hagree c
    refine (h c).2.1.trans ?_
    refine (Cert.ReferenceIdeal.ReadP.val_main_v27_eq (F := Ideal) _ _ _ _ _ _ _ _).trans ?_
    rw [Cert.RefScores.ref_aw, e0, e1, e3, e4, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
